-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S256x384 .f32) (main_arg9 : FVec F S256x384 .f32) (main_arg10 : FVec F S384 .f32) (main_v33 : IVec S_ 1) : IVec S_ 1 :=
  let main_v34 : FVec F S256x384 .f32 := Host.absf main_arg8
  let main_cst_12 : FVec F S_ .f32 := constant S_ .f32 0x7F800000#32
  let main_v35 : FVec F S256x384 .f32 := broadcastInDim S256x384 ![] bcast_S_S256x384 main_cst_12
  let main_v36 : IVec S256x384 1 := cmpf .olt main_v34 main_v35
  let main_c_13 : IVec S_ 1 := constantI S_ 1 1#1
  let main_v37 : IVec S_ 1 := (fun x v => Host.reduce IntOp.andi x v reducesTo_S256x384_S_d0_1 h_S_) main_v36 main_c_13
  let main_v38 : IVec S_ 1 := andi main_v33 main_v37
  let main_v39 : FVec F S256x384 .f32 := Host.absf main_arg9
  let main_cst_14 : FVec F S_ .f32 := constant S_ .f32 0x7F800000#32
  let main_v40 : FVec F S256x384 .f32 := broadcastInDim S256x384 ![] bcast_S_S256x384 main_cst_14
  let main_v41 : IVec S256x384 1 := cmpf .olt main_v39 main_v40
  let main_c_15 : IVec S_ 1 := constantI S_ 1 1#1
  let main_v42 : IVec S_ 1 := (fun x v => Host.reduce IntOp.andi x v reducesTo_S256x384_S_d0_1 h_S_) main_v41 main_c_15
  let main_v43 : IVec S_ 1 := andi main_v38 main_v42
  let main_v44 : FVec F S384 .f32 := Host.absf main_arg10
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg5 : FVec F S256x256 .f32) (main_arg6 : FVec F S256x256 .f32) (main_arg7 : FVec F S256 .f32) (main_arg8 : FVec F S256x384 .f32) (main_arg9 : FVec F S256x384 .f32) (main_arg10 : FVec F S384 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x384 .f32) (main_arg9 : FVec F S256x384 .f32) (main_arg10 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1000x128 : Shape := ⟨2, ![1000, 128]⟩
abbrev S1000x1 : Shape := ⟨2, ![1000, 1]⟩
abbrev S1000x256 : Shape := ⟨2, ![1000, 256]⟩
abbrev S1x256 : Shape := ⟨2, ![1, 256]⟩
abbrev S800000x256 : Shape := ⟨2, ![800000, 256]⟩
abbrev S50000x384 : Shape := ⟨2, ![50000, 384]⟩
abbrev S1000x384 : Shape := ⟨2, ![1000, 384]⟩
abbrev S1x384 : Shape := ⟨2, ![1, 384]⟩

abbrev nBuf : Space → Nat
  | .hbm => 70
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x384, .f32⟩
  | .hbm, ⟨9, _⟩ => ⟨S256x384, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x384, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x1, .f32⟩
  | .local _ .vmem, ⟨14, _⟩ => ⟨S1000x1, .f32⟩
  | .local _ .vmem, ⟨15, _⟩ => ⟨S1000x256, .f32⟩
  | .local _ .vmem, ⟨16, _⟩ => ⟨S1000x256, .f32⟩
  | .local _ .vmem, ⟨17, _⟩ => ⟨S256x256, .f32⟩
  | .local _ .vmem, ⟨18, _⟩ => ⟨S256x256, .f32⟩
  | .local _ .vmem, ⟨19, _⟩ => ⟨S256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x1, .f32⟩
  | .local _ .vmem, ⟨25, _⟩ => ⟨S1000x1, .f32⟩
  | .local _ .vmem, ⟨26, _⟩ => ⟨S1000x256, .f32⟩
  | .local _ .vmem, ⟨27, _⟩ => ⟨S1000x256, .f32⟩
  | .local _ .vmem, ⟨28, _⟩ => ⟨S256x384, .f32⟩
  | .local _ .vmem, ⟨29, _⟩ => ⟨S256x384, .f32⟩
  | .local _ .vmem, ⟨30, _⟩ => ⟨S384, .f32⟩
  | .local _ .vmem, ⟨31, _⟩ => ⟨S1000x384, .f32⟩
  | .local _ .vmem, ⟨32, _⟩ => ⟨S1000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S1000x256_S1000x256 : S1000x256.ShapeCasts S1000x256
  broadcasts_S1000x1_S1000x256 : S1000x1.Broadcasts S1000x256
  inb_S256x256_S256x256_0_0 : ∀ a, (![0, 0] : Fin 2 → Nat) a + S256x256.size a ≤ S256x256.size a
  h_S256x256 : 0 < S256x256.numel
  inb_S256x384_S256x384_0_0 : ∀ a, (![0, 0] : Fin 2 → Nat) a + S256x384.size a ≤ S256x384.size a
  h_S256x384 : 0 < S256x384.numel
  inb_S384_S384_0 : ∀ a, (![0] : Fin 1 → Nat) a + S384.size a ≤ S384.size a
  h_S384 : 0 < S384.numel
  shapeCasts_S384_S1x384 : S384.ShapeCasts S1x384
  broadcasts_S1x384_S1000x384 : S1x384.Broadcasts S1000x384
  inb_S1000x384_S1000x384_0_0 : ∀ a, (![0, 0] : Fin 2 → Nat) a + S1000x384.size a ≤ S1000x384.size a
  h_S1000x384 : 0 < S1000x384.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x256_S256x384_S1000x384_1_0_0_1_n_n_wf : DotDims.WF S1000x256 S256x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S50000x256.size a
  hwx0_6 : ∀ i : grid0.Coords, EltTy.bits .f32 = 32 ∨ (Rect.block (s := S50000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S50000x256.size a
  hwx1_6 : ∀ i : grid1.Coords, EltTy.bits .f32 = 32 ∨ (Rect.block (s := S50000x256) S1000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x384.size a ≤ S256x384.size a
  hwx2_3 : ∀ i : grid2.Coords, EltTy.bits .f32 = 32 ∨ (Rect.block (s := S256x384) S256x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x384.size a ≤ S256x384.size a
  hwx2_4 : ∀ i : grid2.Coords, EltTy.bits .f32 = 32 ∨ (Rect.block (s := S256x384) S256x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384.size a ≤ S384.size a
  hwx2_5 : ∀ i : grid2.Coords, EltTy.bits .f32 = 32 ∨ (Rect.block (s := S384) S384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x384.size a ≤ S50000x384.size a
  hwx2_6 : ∀ i : grid2.Coords, EltTy.bits .f32 = 32 ∨ (Rect.block (s := S50000x384) S1000x384.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x384_S1000x384_1_0_0_1_n_n : DotDims S1000x256 S256x384 S1000x384 where
  lhsContracting := [1]
  rhsContracting := [0]
  lhsNonContracting := [0]
  rhsNonContracting := [1]
  lhsBatch := []
  rhsBatch := []
  wf := dot_S1000x256_S256x384_S1000x384_1_0_0_1_n_n_wf

abbrev win0_0 : Pipeline.Window sig grid0 :=
  Pipeline.Window.ofSpec (Memref.whole main_v22) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x384 : Shape := ⟨2, ![256, 384]⟩
abbrev S384 : Shape := ⟨1, ![384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x384 : Shape := ⟨2, ![50000, 384]⟩
abbrev S1x384 : Shape := ⟨2, ![1, 384]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x384, .f32⟩
  | .hbm, ⟨9, _⟩ => ⟨S256x384, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S50000x384, .f32⟩
  | .hbm, ⟨92, _⟩ => ⟨S50000x384, .f32⟩
  | .hbm, ⟨93, _⟩ => ⟨S50000x384, .f32⟩
  | .hbm, ⟨94, _⟩ => ⟨S1x384, .f32⟩
  | .hbm, ⟨95, _⟩ => ⟨S50000x384, .f32⟩
  | .hbm, ⟨96, _⟩ => ⟨S50000x384, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x384_S50000x384_1_0_0_1_n_n_wf : DotDims.WF S50000x256 S256x384 S50000x384 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf

class Facts : Prop extends Facts₀ where

variable [Facts]
-- ==== Proof.SageSpec.lean ====
/-
  One mean-aggregating graph-convolution layer, as a function of whole arrays, index by index, on the extended reals:

      pre (i, j) = (Σ_k (agg[i,k] · inv[i,0]) · wl[k,j]) + (Σ_k x[i,k] · wr[k,j]) + b[j]
      act (i, j) = max (pre (i, j)) 0

  with `agg` the neighbour sums, `inv` the column of reciprocal in-degrees, `x` the node features, `wl`, `wr` the two
  weight matrices and `b` the bias.  The sums are taken in this order and grouping on both sides of the certificate, so no
  algebraic law of the extended reals is used anywhere: only that a row block of the result reads the same rows of
  `agg`, `inv` and `x` (`pre_rows`, `act_rows`).  `net` stacks three layers (widths 128 → 256 → 256 → 384, the last
  one without the rectifier) over two aggregation operators that are parameters: the certificate never opens them.
-/
import Idealize.ShloMosaic.PureOps.Ideal
import Idealize.ShloMosaic.Lib.ValueIdx

noncomputable section

namespace Sage

open Idealize.ShloMosaic Idealize.ShloMosaic.ValueIdx

/-- A real matrix with `n` rows and `k` columns, entries extended reals. -/
abbrev Mat (n k : Nat) : Type := FVec Ideal (⟨2, ![n, k]⟩ : Shape) .f32
/-- A vector of `k` extended reals. -/
abbrev Row (k : Nat) : Type := FVec Ideal (⟨1, ![k]⟩ : Shape) .f32

/-- The row coordinate of a matrix index, as a number below the row count. -/
abbrev rowOf {n k : Nat} (i : (⟨2, ![n, k]⟩ : Shape).Idx) : Fin n := ⟨(i 0).val, idx2_lt0 i⟩
/-- The column coordinate of a matrix index. -/
abbrev colOf {n k : Nat} (i : (⟨2, ![n, k]⟩ : Shape).Idx) : Fin k := ⟨(i 1).val, idx2_lt1 i⟩

/-- The word of the float zero, read at the extended reals (never evaluated: both programs spell the same word). -/
abbrev zero32 : EReal := Ideal.ofBits .f32 0x00000000#32

/-- A layer before its rectifier: the scaled neighbour sums through `wl`, plus the features through `wr`, plus the bias. -/
def pre (n din dout : Nat) (agg : Mat n din) (inv : Mat n 1) (x : Mat n din) (wl wr : Mat din dout) (b : Row dout) :
    Mat n dout := fun i =>
  ((∑ k : Fin din, (agg (ix2 (rowOf i) k) * inv (ix2 (rowOf i) (0 : Fin 1))) * wl (ix2 k (colOf i)))
    + ∑ k : Fin din, x (ix2 (rowOf i) k) * wr (ix2 k (colOf i)))
  + b (ix1 (colOf i))

/-- A layer with its rectifier. -/
def act (n din dout : Nat) (agg : Mat n din) (inv : Mat n 1) (x : Mat n din) (wl wr : Mat din dout) (b : Row dout) :
    Mat n dout := fun i => max (pre n din dout agg inv x wl wr b i) zero32

/-- Rows `off … off + nb - 1` of a layer's result depend only on those rows of `agg`, `inv` and `x`: a layer applied
    to a row block of the three is that row block of the layer applied to the whole arrays. -/
theorem pre_rows (n nb din dout off : Nat) (hoff : off + nb ≤ n)
    (agg : Mat n din) (inv : Mat n 1) (x : Mat n din) (wl wr : Mat din dout) (b : Row dout)
    (aggB : Mat nb din) (invB : Mat nb 1) (xB : Mat nb din)
    (hagg : ∀ (p : Fin nb) (k : Fin din), aggB (ix2 p k) = agg (ix2 ⟨off + p.val, by have := p.isLt; omega⟩ k))
    (hinv : ∀ (p : Fin nb), invB (ix2 p (0 : Fin 1)) = inv (ix2 ⟨off + p.val, by have := p.isLt; omega⟩ (0 : Fin 1)))
    (hx : ∀ (p : Fin nb) (k : Fin din), xB (ix2 p k) = x (ix2 ⟨off + p.val, by have := p.isLt; omega⟩ k))
    (p : Fin nb) (q : Fin dout) :
    pre nb din dout aggB invB xB wl wr b (ix2 p q)
      = pre n din dout agg inv x wl wr b (ix2 ⟨off + p.val, by have := p.isLt; omega⟩ q) := by
  unfold pre
  simp only [hagg, hinv, hx]
  rfl

/-- The same with the rectifier. -/
theorem act_rows (n nb din dout off : Nat) (hoff : off + nb ≤ n)
    (agg : Mat n din) (inv : Mat n 1) (x : Mat n din) (wl wr : Mat din dout) (b : Row dout)
    (aggB : Mat nb din) (invB : Mat nb 1) (xB : Mat nb din)
    (hagg : ∀ (p : Fin nb) (k : Fin din), aggB (ix2 p k) = agg (ix2 ⟨off + p.val, by have := p.isLt; omega⟩ k))
    (hinv : ∀ (p : Fin nb), invB (ix2 p (0 : Fin 1)) = inv (ix2 ⟨off + p.val, by have := p.isLt; omega⟩ (0 : Fin 1)))
    (hx : ∀ (p : Fin nb) (k : Fin din), xB (ix2 p k) = x (ix2 ⟨off + p.val, by have := p.isLt; omega⟩ k))
    (p : Fin nb) (q : Fin dout) :
    act nb din dout aggB invB xB wl wr b (ix2 p q)
      = act n din dout agg inv x wl wr b (ix2 ⟨off + p.val, by have := p.isLt; omega⟩ q) := by
  unfold act
  rw [pre_rows n nb din dout off hoff agg inv x wl wr b aggB invB xB hagg hinv hx p q]

/-- Three stacked layers over 50000 nodes, widths 128 → 256 → 256 → 384: each layer aggregates the previous layer's
    output (`agg1` on width 128, `agg2` on width 256), rectifies after the first two, and not after the third. -/
def net (agg1 : Mat 50000 128 → Mat 50000 128) (agg2 : Mat 50000 256 → Mat 50000 256) (inv : Mat 50000 1)
    (x : Mat 50000 128) (w1l w1r : Mat 128 256) (b1 : Row 256) (w2l w2r : Mat 256 256) (b2 : Row 256)
    (w3l w3r : Mat 256 384) (b3 : Row 384) : Mat 50000 384 :=
  pre 50000 256 384
    (agg2 (act 50000 256 256 (agg2 (act 50000 128 256 (agg1 x) inv x w1l w1r b1)) inv (act 50000 128 256 (agg1 x) inv x w1l w1r b1) w2l w2r b2))
    inv
    (act 50000 256 256 (agg2 (act 50000 128 256 (agg1 x) inv x w1l w1r b1)) inv (act 50000 128 256 (agg1 x) inv x w1l w1r b1) w2l w2r b2)
    w3l w3r b3

end Sage

end
-- ==== Proof.Layer0.lean ====
/-
  The first layer's kernel region read as a VALUE, at the extended reals.  The grid has fifty points; point `t` is
  handed rows `1000 t … 1000 t + 999` of the neighbour sums, of the reciprocal-degree column and of the features, and
  the two weight matrices and the bias whole; its body multiplies the neighbour sums by the row's reciprocal degree,
  takes the two matrix products (each entry a sum over the 128 inner positions), adds them, adds the bias and rectifies:
  `Sage.act 1000 128 256` of the six blocks (`pay_eq`).  Since a row of a layer's result reads only that row of the
  three row-blocked operands (`Sage.act_rows`), what point `t` writes back is block `t` of `Sage.act 50000 128 256` of
  the whole arrays (`flushed_eq`); the fifty blocks cover the output array (`cover`), so the array the region leaves is
  that layer of the arrays it was entered with (`final`) — whatever those arrays are: the entry contents are a parameter.
-/
import proofs.«173000_j30219389895226_1_alg».proof.Proof.Gen.KernelIdeal.Frame
import proofs.«173000_j30219389895226_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix product of a row block, entry by entry -/

theorem lhs_row (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhs_inner (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhs_inner (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhs_col (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- Entry (p, q) of a [1000,128] × [128,256] product into a zero accumulator is the sum over the 128 inner positions. -/
theorem matmul_entry (a : FVec Ideal S1000x128 .bf16) (w : FVec Ideal S128x256 .bf16) (p : Fin 1000) (q : Fin 256) :
    matmul dot_S1000x128_S128x256_S1000x256_1_0_0_1_n_n none a w (constant S1000x256 .f32 0x00000000#32) (ix2 p q)
      = ∑ k : Fin 128, a (ix2 p k) * w (ix2 k q) := by
  show FloatOps.matmul dot_S1000x128_S128x256_S1000x256_1_0_0_1_n_n none a w (constant S1000x256 .f32 0x00000000#32) (ix2 p q) = _
  rw [Ideal.matmul_constant_zero_apply, ← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p q) ((ValueIdx.contrEquiv1 dot_S1000x128_S128x256_S1000x256_1_0_0_1_n_n 128 rfl rfl).symm k) = ix2 p k := funext fun a => Fin.ext (by
    match a with
    | ⟨0, _⟩ => exact lhs_row _ _
    | ⟨1, _⟩ => exact (lhs_inner _ _).trans hk)
  have er : dot_S1000x128_S128x256_S1000x256_1_0_0_1_n_n.rhsIdx (ix2 p q) ((ValueIdx.contrEquiv1 dot_S1000x128_S128x256_S1000x256_1_0_0_1_n_n 128 rfl rfl).symm k) = ix2 k q := funext fun a => Fin.ext (by
    match a with
    | ⟨0, _⟩ => exact (rhs_inner _ _).trans hk
    | ⟨1, _⟩ => exact rhs_col _ _)
  rw [el, er]

/-- A column [1000,1] spread over 128 columns reads the column's entry of that row. -/
theorem spread_col (v : FVec Ideal S1000x1 .f32) (p : Fin 1000) (k : Fin 128) :
    broadcastTo S1000x128 v broadcasts_S1000x1_S1000x128 (ix2 p k) = v (ix2 p (0 : Fin 1)) :=
  broadcastTo_apply v broadcasts_S1000x1_S1000x128 (ix2 p k) (ix2 p (0 : Fin 1)) (fun a => by
    match a with
    | ⟨0, _⟩ => show p.val = if (1000 : Nat) = 1 then 0 else p.val; rw [if_neg (by decide)]
    | ⟨1, _⟩ => show 0 = if (1 : Nat) = 1 then 0 else k.val; rw [if_pos rfl])

/-- A vector [256] laid as one row and spread over 1000 rows reads the vector's entry of that column. -/
theorem spread_row (v : FVec Ideal S256 .f32) (p : Fin 1000) (q : Fin 256) :
    broadcastTo S1000x256 (shapeCast S1x256 v shapeCasts_S256_S1x256) broadcasts_S1x256_S1000x256 (ix2 p q) = v (ix1 q) := by
  rw [broadcastTo_apply (shapeCast S1x256 v shapeCasts_S256_S1x256) broadcasts_S1x256_S1000x256 (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])]
  refine (shapeCast_addUnit_apply ![256] v shapeCasts_S256_S1x256 (ix2 (0 : Fin 1) q)).trans ?_
  refine congrArg v (funext fun a => ?_)
  match a with
  | ⟨0, _⟩ => rfl

/-- The body's stored value is one layer, with its rectifier, of the six loaded blocks. -/
theorem pay_eq (x0 : Vec Ideal S1000x128 .f32) (x1 : Vec Ideal S1000x1 .f32) (x2 : Vec Ideal S1000x128 .f32)
    (x3 x4 : Vec Ideal S128x256 .f32) (x5 : Vec Ideal S256 .f32) :
    k0_pay1 (F := Ideal) x0 x1 x2 x3 x4 x5 = Sage.act 1000 128 256 x0 x1 x2 x3 x4 x5 := by
  funext j
  obtain ⟨p, q, rfl⟩ : ∃ (p : Fin 1000) (q : Fin 256), j = ix2 p q := ⟨j 0, j 1, eq_ix2 j⟩
  unfold k0_pay1 Sage.act Sage.pre
  rw [maximumf_apply, addf_apply, addf_apply, matmul_entry, matmul_entry, spread_row]
  simp only [truncf_apply, mulf_apply, shapeCast_self, spread_col, broadcast_apply]
  rfl

/-! ## From row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move down one block of 1000
    rows per point; the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 50 := lt_of_lt_of_eq t.isLt N_0

/-- Row `p` of the neighbour-sum block at point `t` is row `1000 t + p` of the array. -/
theorem blk_agg (c : Dev nD) (t : Fin cfg0.N) (p : Fin 1000) (k : Fin 128) :
    (iblk0 V c 0 t : Vec Ideal S1000x128 .f32) (ix2 p k)
      = (V c main_v22 : Vec Ideal S50000x128 .f32) (ix2 ⟨1000 * t.val + p.val, by have := t_lt t; have := p.isLt; omega⟩ k) := by
  obtain ⟨e0, e1, -⟩ := idx_facts t
  show V c main_v22 (((cfg0.win 0).blk t).view.emb (ix2 p k)) = _
  refine congrArg (V c main_v22) (funext fun a => Fin.ext ?_)
  match a with
  | ⟨0, _⟩ => show win0_0.index t (0 : Fin 2) * 1000 + 1 * p.val = 1000 * t.val + p.val; omega
  | ⟨1, _⟩ => show win0_0.index t (1 : Fin 2) * 128 + 1 * k.val = k.val; omega

/-- Row `p` of the reciprocal-degree block at point `t` is row `1000 t + p` of the column. -/
theorem blk_inv (c : Dev nD) (t : Fin cfg0.N) (p : Fin 1000) :
    (iblk0 V c 1 t : Vec Ideal S1000x1 .f32) (ix2 p (0 : Fin 1))
      = (V c main_v12 : Vec Ideal S50000x1 .f32) (ix2 ⟨1000 * t.val + p.val, by have := t_lt t; have := p.isLt; omega⟩ (0 : Fin 1)) := by
  obtain ⟨-, -, e0, e1, -⟩ := idx_facts t
  show V c main_v12 (((cfg0.win 1).blk t).view.emb (ix2 p (0 : Fin 1))) = _
  refine congrArg (V c main_v12) (funext fun a => Fin.ext ?_)
  match a with
  | ⟨0, _⟩ => show win0_1.index t (0 : Fin 2) * 1000 + 1 * p.val = 1000 * t.val + p.val; omega
  | ⟨1, _⟩ => show win0_1.index t (1 : Fin 2) * 1 + 1 * 0 = 0; omega

/-- Row `p` of the feature block at point `t` is row `1000 t + p` of the feature array. -/
theorem blk_x (c : Dev nD) (t : Fin cfg0.N) (p : Fin 1000) (k : Fin 128) :
    (iblk0 V c 2 t : Vec Ideal S1000x128 .f32) (ix2 p k)
      = (V c main_arg0 : Vec Ideal S50000x128 .f32) (ix2 ⟨1000 * t.val + p.val, by have := t_lt t; have := p.isLt; omega⟩ k) := by
  obtain ⟨-, -, -, -, e0, e1, -⟩ := idx_facts t
  show V c main_arg0 (((cfg0.win 2).blk t).view.emb (ix2 p k)) = _
  refine congrArg (V c main_arg0) (funext fun a => Fin.ext ?_)
  match a with
  | ⟨0, _⟩ => show win0_2.index t (0 : Fin 2) * 1000 + 1 * p.val = 1000 * t.val + p.val; omega
  | ⟨1, _⟩ => show win0_2.index t (1 : Fin 2) * 128 + 1 * k.val = k.val; omega

/-- The two weight blocks and the bias block are the whole arrays at every point. -/
theorem blk_wl (c : Dev nD) (t : Fin cfg0.N) : (iblk0 V c 3 t : Vec Ideal S128x256 .f32) = (V c main_arg2 : Vec Ideal S128x256 .f32) := by
  obtain ⟨-, -, -, -, -, -, e0, e1, -⟩ := idx_facts t
  funext y
  show V c main_arg2 (((cfg0.win 3).blk t).view.emb y) = _
  refine congrArg (V c main_arg2) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega
theorem blk_wr (c : Dev nD) (t : Fin cfg0.N) : (iblk0 V c 4 t : Vec Ideal S128x256 .f32) = (V c main_arg3 : Vec Ideal S128x256 .f32) := by
  obtain ⟨-, -, -, -, -, -, -, -, e0, e1, -⟩ := idx_facts t
  funext y
  show V c main_arg3 (((cfg0.win 4).blk t).view.emb y) = _
  refine congrArg (V c main_arg3) (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega
theorem blk_b (c : Dev nD) (t : Fin cfg0.N) : (iblk0 V c 5 t : Vec Ideal S256 .f32) = (V c main_arg4 : Vec Ideal S256 .f32) := by
  obtain ⟨-, -, -, -, -, -, -, -, -, -, e0, -⟩ := idx_facts t
  funext y
  show V c main_arg4 (((cfg0.win 5).blk t).view.emb y) = _
  refine congrArg (V c main_arg4) (funext fun a => Fin.ext ?_)
  match a with
  | ⟨0, _⟩ => show win0_5.index t (0 : Fin 1) * 256 + 1 * (y 0).val = (y 0).val; omega

/-- Entry (p, q) of the output block at point `t` sits at (1000 t + p, q) of the output array. -/
theorem emb_out (t : Fin cfg0.N) (p : Fin 1000) (q : Fin 256) :
    ((cfg0.win 6).blk t).view.emb (ix2 p q) = (ix2 ⟨1000 * t.val + p.val, by have := t_lt t; have := p.isLt; omega⟩ q : S50000x256.Idx) := by
  obtain ⟨-, -, -, -, -, -, -, -, -, -, -, e0, e1⟩ := idx_facts t
  refine funext fun a => Fin.ext ?_
  match a with
  | ⟨0, _⟩ => show win0_6.index t (0 : Fin 2) * 1000 + 1 * p.val = 1000 * t.val + p.val; omega
  | ⟨1, _⟩ => show win0_6.index t (1 : Fin 2) * 256 + 1 * q.val = q.val; omega

/-- What point `t` writes back is block `t` of the layer of the whole arrays as the region finds them. -/
theorem flushed_eq (c : Dev nD) (t : Fin cfg0.N) :
    (dat0 V c).flushed 6 t = ((cfg0.win 6).blk t).view.read (Elt Ideal)
      (Sage.act 50000 128 256 (V c main_v22) (V c main_v12) (V c main_arg0) (V c main_arg2) (V c main_arg3) (V c main_arg4)) := by
  show (cfg0.win 6).cut (grid0.coords t) ((dat0 V c).after 6 t) = _
  rw [after0_6]
  unfold out0_6
  rw [View.canon_unit_zero hz2]
  simp only [View.ld_unit_zero (S := S1000x128) hz2, View.ld_unit_zero (S := S1000x1) hz2, View.ld_unit_zero (S := S128x256) hz2, View.ld_unit_zero (S := S256) hz1]
  rw [pay_eq, blk_wl V c t, blk_wr V c t, blk_b V c t]
  funext j
  obtain ⟨p, q, rfl⟩ : ∃ (p : Fin 1000) (q : Fin 256), j = ix2 p q := ⟨j 0, j 1, eq_ix2 j⟩
  show Sage.act 1000 128 256 (iblk0 V c 0 t) (iblk0 V c 1 t) (iblk0 V c 2 t) (V c main_arg2) (V c main_arg3) (V c main_arg4) (ix2 p q)
    = Sage.act 50000 128 256 (V c main_v22) (V c main_v12) (V c main_arg0) (V c main_arg2) (V c main_arg3) (V c main_arg4) (((cfg0.win 6).blk t).view.emb (ix2 p q))
  rw [emb_out t p q]
  exact Sage.act_rows 50000 1000 128 256 (1000 * t.val) (by have := t_lt t; omega) (V c main_v22) (V c main_v12) (V c main_arg0) (V c main_arg2) (V c main_arg3) (V c main_arg4)
    (iblk0 V c 0 t) (iblk0 V c 1 t) (iblk0 V c 2 t) (fun p k => blk_agg V c t p k) (fun p => blk_inv V c t p) (fun p k => blk_x V c t p k) p q

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v23).slice (win0_6.rect t)).set ↔ _
  rw [View.set_slice_whole, Rect.mem_set_unit]
  exact Iff.rfl

/-- The fifty row blocks cover the output array: row `r` is in the block of point `r / 1000`. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 50 := N_0
  have ht : (i 0).val / 1000 < cfg0.N := by rw [hN]; omega
  obtain ⟨-, -, -, -, -, -, -, -, -, -, -, e0, e1⟩ := idx_facts ⟨(i 0).val / 1000, ht⟩
  refine ⟨⟨(i 0).val / 1000, ht⟩, flush0_6 _, ?_⟩
  rw [mem_blk]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_6.index ⟨(i 0).val / 1000, ht⟩ (1 : Fin 2) * 256 ≤ (i 1).val ∧ (i 1).val < win0_6.index ⟨(i 0).val / 1000, ht⟩ (1 : Fin 2) * 256 + 256
    rw [e1]; omega

/-- THE OUTPUT ARRAY after the region: one rectified layer of the arrays the region was entered with. -/
theorem final (c : Dev nD) :
    (dat0 V c).arrAt 6 cfg0.N
      = Sage.act 50000 128 256 (V c main_v22) (V c main_v12) (V c main_arg0) (V c main_arg2) (V c main_arg3) (V c main_arg4) :=
  (dat0 V c).arrAt_eq_of_cover 6 _ (fun t _ => flushed_eq V c t) cover

end Cert.KernelIdeal.Layer0

end
-- ==== Proof.Layer1.lean ====
/-
  The second layer's kernel region read as a VALUE, at the extended reals.  The grid has fifty points; point `t` is
  handed rows `1000 t … 1000 t + 999` of the neighbour sums, of the reciprocal-degree column and of the features, and
  the two weight matrices and the bias whole; its body multiplies the neighbour sums by the row's reciprocal degree,
  takes the two matrix products (each entry a sum over the 256 inner positions), adds them, adds the bias and rectifies:
  `Sage.act 1000 256 256` of the six blocks (`pay_eq`).  Since a row of a layer's result reads only that row of the
  three row-blocked operands (`Sage.act_rows`), what point `t` writes back is block `t` of `Sage.act 50000 256 256` of
  the whole arrays (`flushed_eq`); the fifty blocks cover the output array (`cover`), so the array the region leaves is
  that layer of the arrays it was entered with (`final`) — whatever those arrays are: the entry contents are a parameter.
-/
import proofs.«173000_j30219389895226_1_alg».proof.Proof.Gen.KernelIdeal.Frame
import proofs.«173000_j30219389895226_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix product of a row block, entry by entry -/

theorem lhs_row (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_inner (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_inner (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_col (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- Entry (p, q) of a [1000,256] × [256,256] product into a zero accumulator is the sum over the 256 inner positions. -/
theorem matmul_entry (a : FVec Ideal S1000x256 .bf16) (w : FVec Ideal S256x256 .bf16) (p : Fin 1000) (q : Fin 256) :
    matmul dot_S1000x256_S256x256_S1000x256_1_0_0_1_n_n none a w (constant S1000x256 .f32 0x00000000#32) (ix2 p q)
      = ∑ k : Fin 256, a (ix2 p k) * w (ix2 k q) := by
  show FloatOps.matmul dot_S1000x256_S256x256_S1000x256_1_0_0_1_n_n none a w (constant S1000x256 .f32 0x00000000#32) (ix2 p q) = _
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_row _ _
    | ⟨1, _⟩ => exact (lhs_inner _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_inner _ _).trans hk
    | ⟨1, _⟩ => exact rhs_col _ _)
  rw [el, er]

/-- A column [1000,1] spread over 256 columns reads the column's entry of that row. -/
theorem spread_col (v : FVec Ideal S1000x1 .f32) (p : Fin 1000) (k : Fin 256) :
    broadcastTo S1000x256 v broadcasts_S1000x1_S1000x256 (ix2 p k) = v (ix2 p (0 : Fin 1)) :=
  broadcastTo_apply v broadcasts_S1000x1_S1000x256 (ix2 p k) (ix2 p (0 : Fin 1)) (fun a => by
    match a with
    | ⟨0, _⟩ => show p.val = if (1000 : Nat) = 1 then 0 else p.val; rw [if_neg (by decide)]
    | ⟨1, _⟩ => show 0 = if (1 : Nat) = 1 then 0 else k.val; rw [if_pos rfl])

/-- A vector [256] laid as one row and spread over 1000 rows reads the vector's entry of that column. -/
theorem spread_row (v : FVec Ideal S256 .f32) (p : Fin 1000) (q : Fin 256) :
    broadcastTo S1000x256 (shapeCast S1x256 v shapeCasts_S256_S1x256) broadcasts_S1x256_S1000x256 (ix2 p q) = v (ix1 q) := by
  rw [broadcastTo_apply (shapeCast S1x256 v shapeCasts_S256_S1x256) broadcasts_S1x256_S1000x256 (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])]
  refine (shapeCast_addUnit_apply ![256] v shapeCasts_S256_S1x256 (ix2 (0 : Fin 1) q)).trans ?_
  refine congrArg v (funext fun a => ?_)
  match a with
  | ⟨0, _⟩ => rfl

/-- The body's stored value is one layer, with its rectifier, of the six loaded blocks. -/
theorem pay_eq (x0 : Vec Ideal S1000x256 .f32) (x1 : Vec Ideal S1000x1 .f32) (x2 : Vec Ideal S1000x256 .f32)
    (x3 x4 : Vec Ideal S256x256 .f32) (x5 : Vec Ideal S256 .f32) :
    k1_pay1 (F := Ideal) x0 x1 x2 x3 x4 x5 = Sage.act 1000 256 256 x0 x1 x2 x3 x4 x5 := by
  funext j
  obtain ⟨p, q, rfl⟩ : ∃ (p : Fin 1000) (q : Fin 256), j = ix2 p q := ⟨j 0, j 1, eq_ix2 j⟩
  unfold k1_pay1 Sage.act Sage.pre
  rw [maximumf_apply, addf_apply, addf_apply, matmul_entry, matmul_entry, spread_row]
  simp only [truncf_apply, mulf_apply, shapeCast_self, spread_col, broadcast_apply]
  rfl

/-! ## From row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move down one block of 1000
    rows per point; the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 50 := lt_of_lt_of_eq t.isLt N_1

/-- Row `p` of the neighbour-sum block at point `t` is row `1000 t + p` of the array. -/
theorem blk_agg (c : Dev nD) (t : Fin cfg1.N) (p : Fin 1000) (k : Fin 256) :
    (iblk1 V c 0 t : Vec Ideal S1000x256 .f32) (ix2 p k)
      = (V c main_v33 : Vec Ideal S50000x256 .f32) (ix2 ⟨1000 * t.val + p.val, by have := t_lt t; have := p.isLt; omega⟩ k) := by
  obtain ⟨e0, e1, -⟩ := idx_facts t
  show V c main_v33 (((cfg1.win 0).blk t).view.emb (ix2 p k)) = _
  refine congrArg (V c main_v33) (funext fun a => Fin.ext ?_)
  match a with
  | ⟨0, _⟩ => show win1_0.index t (0 : Fin 2) * 1000 + 1 * p.val = 1000 * t.val + p.val; omega
  | ⟨1, _⟩ => show win1_0.index t (1 : Fin 2) * 256 + 1 * k.val = k.val; omega

/-- Row `p` of the reciprocal-degree block at point `t` is row `1000 t + p` of the column. -/
theorem blk_inv (c : Dev nD) (t : Fin cfg1.N) (p : Fin 1000) :
    (iblk1 V c 1 t : Vec Ideal S1000x1 .f32) (ix2 p (0 : Fin 1))
      = (V c main_v12 : Vec Ideal S50000x1 .f32) (ix2 ⟨1000 * t.val + p.val, by have := t_lt t; have := p.isLt; omega⟩ (0 : Fin 1)) := by
  obtain ⟨-, -, e0, e1, -⟩ := idx_facts t
  show V c main_v12 (((cfg1.win 1).blk t).view.emb (ix2 p (0 : Fin 1))) = _
  refine congrArg (V c main_v12) (funext fun a => Fin.ext ?_)
  match a with
  | ⟨0, _⟩ => show win1_1.index t (0 : Fin 2) * 1000 + 1 * p.val = 1000 * t.val + p.val; omega
  | ⟨1, _⟩ => show win1_1.index t (1 : Fin 2) * 1 + 1 * 0 = 0; omega

/-- Row `p` of the feature block at point `t` is row `1000 t + p` of the feature array. -/
theorem blk_x (c : Dev nD) (t : Fin cfg1.N) (p : Fin 1000) (k : Fin 256) :
    (iblk1 V c 2 t : Vec Ideal S1000x256 .f32) (ix2 p k)
      = (V c main_v23 : Vec Ideal S50000x256 .f32) (ix2 ⟨1000 * t.val + p.val, by have := t_lt t; have := p.isLt; omega⟩ k) := by
  obtain ⟨-, -, -, -, e0, e1, -⟩ := idx_facts t
  show V c main_v23 (((cfg1.win 2).blk t).view.emb (ix2 p k)) = _
  refine congrArg (V c main_v23) (funext fun a => Fin.ext ?_)
  match a with
  | ⟨0, _⟩ => show win1_2.index t (0 : Fin 2) * 1000 + 1 * p.val = 1000 * t.val + p.val; omega
  | ⟨1, _⟩ => show win1_2.index t (1 : Fin 2) * 256 + 1 * k.val = k.val; omega

/-- The two weight blocks and the bias block are the whole arrays at every point. -/
theorem blk_wl (c : Dev nD) (t : Fin cfg1.N) : (iblk1 V c 3 t : Vec Ideal S256x256 .f32) = (V c main_arg5 : Vec Ideal S256x256 .f32) := by
  obtain ⟨-, -, -, -, -, -, e0, e1, -⟩ := idx_facts t
  funext y
  show V c main_arg5 (((cfg1.win 3).blk t).view.emb y) = _
  refine congrArg (V c main_arg5) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega
theorem blk_wr (c : Dev nD) (t : Fin cfg1.N) : (iblk1 V c 4 t : Vec Ideal S256x256 .f32) = (V c main_arg6 : Vec Ideal S256x256 .f32) := by
  obtain ⟨-, -, -, -, -, -, -, -, e0, e1, -⟩ := idx_facts t
  funext y
  show V c main_arg6 (((cfg1.win 4).blk t).view.emb y) = _
  refine congrArg (V c main_arg6) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega
theorem blk_b (c : Dev nD) (t : Fin cfg1.N) : (iblk1 V c 5 t : Vec Ideal S256 .f32) = (V c main_arg7 : Vec Ideal S256 .f32) := by
  obtain ⟨-, -, -, -, -, -, -, -, -, -, e0, -⟩ := idx_facts t
  funext y
  show V c main_arg7 (((cfg1.win 5).blk t).view.emb y) = _
  refine congrArg (V c main_arg7) (funext fun a => Fin.ext ?_)
  match a with
  | ⟨0, _⟩ => show win1_5.index t (0 : Fin 1) * 256 + 1 * (y 0).val = (y 0).val; omega

/-- Entry (p, q) of the output block at point `t` sits at (1000 t + p, q) of the output array. -/
theorem emb_out (t : Fin cfg1.N) (p : Fin 1000) (q : Fin 256) :
    ((cfg1.win 6).blk t).view.emb (ix2 p q) = (ix2 ⟨1000 * t.val + p.val, by have := t_lt t; have := p.isLt; omega⟩ q : S50000x256.Idx) := by
  obtain ⟨-, -, -, -, -, -, -, -, -, -, -, e0, e1⟩ := idx_facts t
  refine funext fun a => Fin.ext ?_
  match a with
  | ⟨0, _⟩ => show win1_6.index t (0 : Fin 2) * 1000 + 1 * p.val = 1000 * t.val + p.val; omega
  | ⟨1, _⟩ => show win1_6.index t (1 : Fin 2) * 256 + 1 * q.val = q.val; omega

/-- What point `t` writes back is block `t` of the layer of the whole arrays as the region finds them. -/
theorem flushed_eq (c : Dev nD) (t : Fin cfg1.N) :
    (dat1 V c).flushed 6 t = ((cfg1.win 6).blk t).view.read (Elt Ideal)
      (Sage.act 50000 256 256 (V c main_v33) (V c main_v12) (V c main_v23) (V c main_arg5) (V c main_arg6) (V c main_arg7)) := by
  show (cfg1.win 6).cut (grid1.coords t) ((dat1 V c).after 6 t) = _
  rw [after1_6]
  unfold out1_6
  rw [View.canon_unit_zero hz2]
  simp only [View.ld_unit_zero (S := S1000x256) hz2, View.ld_unit_zero (S := S1000x1) hz2, View.ld_unit_zero (S := S256x256) hz2, View.ld_unit_zero (S := S256) hz1]
  rw [pay_eq, blk_wl V c t, blk_wr V c t, blk_b V c t]
  funext j
  obtain ⟨p, q, rfl⟩ : ∃ (p : Fin 1000) (q : Fin 256), j = ix2 p q := ⟨j 0, j 1, eq_ix2 j⟩
  show Sage.act 1000 256 256 (iblk1 V c 0 t) (iblk1 V c 1 t) (iblk1 V c 2 t) (V c main_arg5) (V c main_arg6) (V c main_arg7) (ix2 p q)
    = Sage.act 50000 256 256 (V c main_v33) (V c main_v12) (V c main_v23) (V c main_arg5) (V c main_arg6) (V c main_arg7) (((cfg1.win 6).blk t).view.emb (ix2 p q))
  rw [emb_out t p q]
  exact Sage.act_rows 50000 1000 256 256 (1000 * t.val) (by have := t_lt t; omega) (V c main_v33) (V c main_v12) (V c main_v23) (V c main_arg5) (V c main_arg6) (V c main_arg7)
    (iblk1 V c 0 t) (iblk1 V c 1 t) (iblk1 V c 2 t) (fun p k => blk_agg V c t p k) (fun p => blk_inv V c t p) (fun p k => blk_x V c t p k) p q

/-- An index of the output array is in point `t`'s block iff each coordinate is in the block's range on its axis. -/
theorem mem_blk (t : Fin cfg1.N) (i : S50000x256.Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_v34).slice (win1_6.rect t)).set ↔ _
  rw [View.set_slice_whole, Rect.mem_set_unit]
  exact Iff.rfl

/-- The fifty row blocks cover the output array: row `r` is in the block of point `r / 1000`. -/
theorem cover (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  have hN : cfg1.N = 50 := N_1
  have ht : (i 0).val / 1000 < cfg1.N := by rw [hN]; omega
  obtain ⟨-, -, -, -, -, -, -, -, -, -, -, e0, e1⟩ := idx_facts ⟨(i 0).val / 1000, ht⟩
  refine ⟨⟨(i 0).val / 1000, ht⟩, flush1_6 _, ?_⟩
  rw [mem_blk]
  intro a
  match a with
  | ⟨0, _⟩ =>
    show win1_6.index ⟨(i 0).val / 1000, ht⟩ (0 : Fin 2) * 1000 ≤ (i 0).val ∧ (i 0).val < win1_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_6.index ⟨(i 0).val / 1000, ht⟩ (1 : Fin 2) * 256 ≤ (i 1).val ∧ (i 1).val < win1_6.index ⟨(i 0).val / 1000, ht⟩ (1 : Fin 2) * 256 + 256
    rw [e1]; omega

/-- THE OUTPUT ARRAY after the region: one rectified layer of the arrays the region was entered with. -/
theorem final (c : Dev nD) :
    (dat1 V c).arrAt 6 cfg1.N
      = Sage.act 50000 256 256 (V c main_v33) (V c main_v12) (V c main_v23) (V c main_arg5) (V c main_arg6) (V c main_arg7) :=
  (dat1 V c).arrAt_eq_of_cover 6 _ (fun t _ => flushed_eq V c t) cover

end Cert.KernelIdeal.Layer1

end
-- ==== Proof.Layer2.lean ====
/-
  The third layer's kernel region read as a VALUE, at the extended reals.  The grid has fifty points; point `t` is
  handed rows `1000 t … 1000 t + 999` of the neighbour sums, of the reciprocal-degree column and of the features, and
  the two weight matrices and the bias whole; its body multiplies the neighbour sums by the row's reciprocal degree,
  takes the two matrix products (each entry a sum over the 256 inner positions), adds them, and adds the bias (this layer has no rectifier):
  `Sage.pre 1000 256 384` of the six blocks (`pay_eq`).  Since a row of a layer's result reads only that row of the
  three row-blocked operands (`Sage.pre_rows`), what point `t` writes back is block `t` of `Sage.pre 50000 256 384` of
  the whole arrays (`flushed_eq`); the fifty blocks cover the output array (`cover`), so the array the region leaves is
  that layer of the arrays it was entered with (`final`) — whatever those arrays are: the entry contents are a parameter.
-/
import proofs.«173000_j30219389895226_1_alg».proof.Proof.Gen.KernelIdeal.Frame
import proofs.«173000_j30219389895226_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix product of a row block, entry by entry -/

theorem lhs_row (i : S1000x384.Idx) (q : dot_S1000x256_S256x384_S1000x384_1_0_0_1_n_n.contr.Idx) :
    (dot_S1000x256_S256x384_S1000x384_1_0_0_1_n_n.lhsIdx i q 0).val = (i 0).val := by
  unfold DotDims.lhsIdx
  rw [dif_neg (show ¬(0 : Fin S1000x256.rank) ∈ dot_S1000x256_S256x384_S1000x384_1_0_0_1_n_n.lhsBatch by decide), dif_pos (show (0 : Fin S1000x256.rank) ∈ dot_S1000x256_S256x384_S1000x384_1_0_0_1_n_n.lhsNonContracting by decide)]
  rfl
theorem lhs_inner (i : S1000x384.Idx) (q : dot_S1000x256_S256x384_S1000x384_1_0_0_1_n_n.contr.Idx) :
    (dot_S1000x256_S256x384_S1000x384_1_0_0_1_n_n.lhsIdx i q 1).val = (q ⟨0, by decide⟩).val :=
  dot_S1000x256_S256x384_S1000x384_1_0_0_1_n_n.lhsIdx_val_of_single rfl i q
theorem rhs_inner (i : S1000x384.Idx) (q : dot_S1000x256_S256x384_S1000x384_1_0_0_1_n_n.contr.Idx) :
    (dot_S1000x256_S256x384_S1000x384_1_0_0_1_n_n.rhsIdx i q 0).val = (q ⟨0, by decide⟩).val :=
  dot_S1000x256_S256x384_S1000x384_1_0_0_1_n_n.rhsIdx_val_of_single rfl i q
theorem rhs_col (i : S1000x384.Idx) (q : dot_S1000x256_S256x384_S1000x384_1_0_0_1_n_n.contr.Idx) :
    (dot_S1000x256_S256x384_S1000x384_1_0_0_1_n_n.rhsIdx i q 1).val = (i 1).val := by
  unfold DotDims.rhsIdx
  rw [dif_neg (show ¬(1 : Fin S256x384.rank) ∈ dot_S1000x256_S256x384_S1000x384_1_0_0_1_n_n.rhsBatch by decide), dif_pos (show (1 : Fin S256x384.rank) ∈ dot_S1000x256_S256x384_S1000x384_1_0_0_1_n_n.rhsNonContracting by decide)]
  rfl

/-- Entry (p, q) of a [1000,256] × [256,384] product into a zero accumulator is the sum over the 256 inner positions. -/
theorem matmul_entry (a : FVec Ideal S1000x256 .bf16) (w : FVec Ideal S256x384 .bf16) (p : Fin 1000) (q : Fin 384) :
    matmul dot_S1000x256_S256x384_S1000x384_1_0_0_1_n_n none a w (constant S1000x384 .f32 0x00000000#32) (ix2 p q)
      = ∑ k : Fin 256, a (ix2 p k) * w (ix2 k q) := by
  show FloatOps.matmul dot_S1000x256_S256x384_S1000x384_1_0_0_1_n_n none a w (constant S1000x384 .f32 0x00000000#32) (ix2 p q) = _
  rw [Ideal.matmul_constant_zero_apply, ← Equiv.sum_comp (ValueIdx.contrEquiv1 dot_S1000x256_S256x384_S1000x384_1_0_0_1_n_n 256 rfl rfl).symm]
  refine Finset.sum_congr rfl fun k _ => ?_
  have hk := ValueIdx.contrEquiv1_symm_val dot_S1000x256_S256x384_S1000x384_1_0_0_1_n_n 256 rfl rfl k
  have el : dot_S1000x256_S256x384_S1000x384_1_0_0_1_n_n.lhsIdx (ix2 p q) ((ValueIdx.contrEquiv1 dot_S1000x256_S256x384_S1000x384_1_0_0_1_n_n 256 rfl rfl).symm k) = ix2 p k := funext fun a => Fin.ext (by
    match a with
    | ⟨0, _⟩ => exact lhs_row _ _
    | ⟨1, _⟩ => exact (lhs_inner _ _).trans hk)
  have er : dot_S1000x256_S256x384_S1000x384_1_0_0_1_n_n.rhsIdx (ix2 p q) ((ValueIdx.contrEquiv1 dot_S1000x256_S256x384_S1000x384_1_0_0_1_n_n 256 rfl rfl).symm k) = ix2 k q := funext fun a => Fin.ext (by
    match a with
    | ⟨0, _⟩ => exact (rhs_inner _ _).trans hk
    | ⟨1, _⟩ => exact rhs_col _ _)
  rw [el, er]

/-- A column [1000,1] spread over 256 columns reads the column's entry of that row. -/
theorem spread_col (v : FVec Ideal S1000x1 .f32) (p : Fin 1000) (k : Fin 256) :
    broadcastTo S1000x256 v broadcasts_S1000x1_S1000x256 (ix2 p k) = v (ix2 p (0 : Fin 1)) :=
  broadcastTo_apply v broadcasts_S1000x1_S1000x256 (ix2 p k) (ix2 p (0 : Fin 1)) (fun a => by
    match a with
    | ⟨0, _⟩ => show p.val = if (1000 : Nat) = 1 then 0 else p.val; rw [if_neg (by decide)]
    | ⟨1, _⟩ => show 0 = if (1 : Nat) = 1 then 0 else k.val; rw [if_pos rfl])

/-- A vector [384] laid as one row and spread over 1000 rows reads the vector's entry of that column. -/
theorem spread_row (v : FVec Ideal S384 .f32) (p : Fin 1000) (q : Fin 384) :
    broadcastTo S1000x384 (shapeCast S1x384 v shapeCasts_S384_S1x384) broadcasts_S1x384_S1000x384 (ix2 p q) = v (ix1 q) := by
  rw [broadcastTo_apply (shapeCast S1x384 v shapeCasts_S384_S1x384) broadcasts_S1x384_S1000x384 (ix2 p q) (ix2 (0 : Fin 1) q) (fun a => by
    match a with
    | ⟨0, _⟩ => show 0 = if (1 : Nat) = 1 then 0 else p.val; rw [if_pos rfl]
    | ⟨1, _⟩ => show q.val = if (384 : Nat) = 1 then 0 else q.val; rw [if_neg (by decide)])]
  refine (shapeCast_addUnit_apply ![384] v shapeCasts_S384_S1x384 (ix2 (0 : Fin 1) q)).trans ?_
  refine congrArg v (funext fun a => ?_)
  match a with
  | ⟨0, _⟩ => rfl

/-- The body's stored value is one layer, without a rectifier, of the six loaded blocks. -/
theorem pay_eq (x0 : Vec Ideal S1000x256 .f32) (x1 : Vec Ideal S1000x1 .f32) (x2 : Vec Ideal S1000x256 .f32)
    (x3 x4 : Vec Ideal S256x384 .f32) (x5 : Vec Ideal S384 .f32) :
    k2_pay1 (F := Ideal) x0 x1 x2 x3 x4 x5 = Sage.pre 1000 256 384 x0 x1 x2 x3 x4 x5 := by
  funext j
  obtain ⟨p, q, rfl⟩ : ∃ (p : Fin 1000) (q : Fin 384), j = ix2 p q := ⟨j 0, j 1, eq_ix2 j⟩
  unfold k2_pay1 Sage.pre
  rw [addf_apply, addf_apply, matmul_entry, matmul_entry, spread_row]
  simp only [truncf_apply, mulf_apply, shapeCast_self, spread_col]

/-! ## From row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move down one block of 1000
    rows per point; the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem t_lt (t : Fin cfg2.N) : t.val < 50 := lt_of_lt_of_eq t.isLt N_2

/-- Row `p` of the neighbour-sum block at point `t` is row `1000 t + p` of the array. -/
theorem blk_agg (c : Dev nD) (t : Fin cfg2.N) (p : Fin 1000) (k : Fin 256) :
    (iblk2 V c 0 t : Vec Ideal S1000x256 .f32) (ix2 p k)
      = (V c main_v44 : Vec Ideal S50000x256 .f32) (ix2 ⟨1000 * t.val + p.val, by have := t_lt t; have := p.isLt; omega⟩ k) := by
  obtain ⟨e0, e1, -⟩ := idx_facts t
  show V c main_v44 (((cfg2.win 0).blk t).view.emb (ix2 p k)) = _
  refine congrArg (V c main_v44) (funext fun a => Fin.ext ?_)
  match a with
  | ⟨0, _⟩ => show win2_0.index t (0 : Fin 2) * 1000 + 1 * p.val = 1000 * t.val + p.val; omega
  | ⟨1, _⟩ => show win2_0.index t (1 : Fin 2) * 256 + 1 * k.val = k.val; omega

/-- Row `p` of the reciprocal-degree block at point `t` is row `1000 t + p` of the column. -/
theorem blk_inv (c : Dev nD) (t : Fin cfg2.N) (p : Fin 1000) :
    (iblk2 V c 1 t : Vec Ideal S1000x1 .f32) (ix2 p (0 : Fin 1))
      = (V c main_v12 : Vec Ideal S50000x1 .f32) (ix2 ⟨1000 * t.val + p.val, by have := t_lt t; have := p.isLt; omega⟩ (0 : Fin 1)) := by
  obtain ⟨-, -, e0, e1, -⟩ := idx_facts t
  show V c main_v12 (((cfg2.win 1).blk t).view.emb (ix2 p (0 : Fin 1))) = _
  refine congrArg (V c main_v12) (funext fun a => Fin.ext ?_)
  match a with
  | ⟨0, _⟩ => show win2_1.index t (0 : Fin 2) * 1000 + 1 * p.val = 1000 * t.val + p.val; omega
  | ⟨1, _⟩ => show win2_1.index t (1 : Fin 2) * 1 + 1 * 0 = 0; omega

/-- Row `p` of the feature block at point `t` is row `1000 t + p` of the feature array. -/
theorem blk_x (c : Dev nD) (t : Fin cfg2.N) (p : Fin 1000) (k : Fin 256) :
    (iblk2 V c 2 t : Vec Ideal S1000x256 .f32) (ix2 p k)
      = (V c main_v34 : Vec Ideal S50000x256 .f32) (ix2 ⟨1000 * t.val + p.val, by have := t_lt t; have := p.isLt; omega⟩ k) := by
  obtain ⟨-, -, -, -, e0, e1, -⟩ := idx_facts t
  show V c main_v34 (((cfg2.win 2).blk t).view.emb (ix2 p k)) = _
  refine congrArg (V c main_v34) (funext fun a => Fin.ext ?_)
  match a with
  | ⟨0, _⟩ => show win2_2.index t (0 : Fin 2) * 1000 + 1 * p.val = 1000 * t.val + p.val; omega
  | ⟨1, _⟩ => show win2_2.index t (1 : Fin 2) * 256 + 1 * k.val = k.val; omega

/-- The two weight blocks and the bias block are the whole arrays at every point. -/
theorem blk_wl (c : Dev nD) (t : Fin cfg2.N) : (iblk2 V c 3 t : Vec Ideal S256x384 .f32) = (V c main_arg8 : Vec Ideal S256x384 .f32) := by
  obtain ⟨-, -, -, -, -, -, e0, e1, -⟩ := idx_facts t
  funext y
  show V c main_arg8 (((cfg2.win 3).blk t).view.emb y) = _
  refine congrArg (V c main_arg8) (funext fun a => Fin.ext ?_)
  match a with
  | ⟨0, _⟩ => show win2_3.index t (0 : Fin 2) * 256 + 1 * (y 0).val = (y 0).val; omega
  | ⟨1, _⟩ => show win2_3.index t (1 : Fin 2) * 384 + 1 * (y 1).val = (y 1).val; omega
theorem blk_wr (c : Dev nD) (t : Fin cfg2.N) : (iblk2 V c 4 t : Vec Ideal S256x384 .f32) = (V c main_arg9 : Vec Ideal S256x384 .f32) := by
  obtain ⟨-, -, -, -, -, -, -, -, e0, e1, -⟩ := idx_facts t
  funext y
  show V c main_arg9 (((cfg2.win 4).blk t).view.emb y) = _
  refine congrArg (V c main_arg9) (funext fun a => Fin.ext ?_)
  match a with
  | ⟨0, _⟩ => show win2_4.index t (0 : Fin 2) * 256 + 1 * (y 0).val = (y 0).val; omega
  | ⟨1, _⟩ => show win2_4.index t (1 : Fin 2) * 384 + 1 * (y 1).val = (y 1).val; omega
theorem blk_b (c : Dev nD) (t : Fin cfg2.N) : (iblk2 V c 5 t : Vec Ideal S384 .f32) = (V c main_arg10 : Vec Ideal S384 .f32) := by
  obtain ⟨-, -, -, -, -, -, -, -, -, -, e0, -⟩ := idx_facts t
  funext y
  show V c main_arg10 (((cfg2.win 5).blk t).view.emb y) = _
  refine congrArg (V c main_arg10) (funext fun a => Fin.ext ?_)
  match a with
  | ⟨0, _⟩ => show win2_5.index t (0 : Fin 1) * 384 + 1 * (y 0).val = (y 0).val; omega

/-- Entry (p, q) of the output block at point `t` sits at (1000 t + p, q) of the output array. -/
theorem emb_out (t : Fin cfg2.N) (p : Fin 1000) (q : Fin 384) :
    ((cfg2.win 6).blk t).view.emb (ix2 p q) = (ix2 ⟨1000 * t.val + p.val, by have := t_lt t; have := p.isLt; omega⟩ q : S50000x384.Idx) := by
  obtain ⟨-, -, -, -, -, -, -, -, -, -, -, e0, e1⟩ := idx_facts t
  refine funext fun a => Fin.ext ?_
  match a with
  | ⟨0, _⟩ => show win2_6.index t (0 : Fin 2) * 1000 + 1 * p.val = 1000 * t.val + p.val; omega
  | ⟨1, _⟩ => show win2_6.index t (1 : Fin 2) * 384 + 1 * q.val = q.val; omega

/-- What point `t` writes back is block `t` of the layer of the whole arrays as the region finds them. -/
theorem flushed_eq (c : Dev nD) (t : Fin cfg2.N) :
    (dat2 V c).flushed 6 t = ((cfg2.win 6).blk t).view.read (Elt Ideal)
      (Sage.pre 50000 256 384 (V c main_v44) (V c main_v12) (V c main_v34) (V c main_arg8) (V c main_arg9) (V c main_arg10)) := by
  show (cfg2.win 6).cut (grid2.coords t) ((dat2 V c).after 6 t) = _
  rw [after2_6]
  unfold out2_6
  rw [View.canon_unit_zero hz2]
  simp only [View.ld_unit_zero (S := S1000x256) hz2, View.ld_unit_zero (S := S1000x1) hz2, View.ld_unit_zero (S := S256x384) hz2, View.ld_unit_zero (S := S384) hz1]
  rw [pay_eq, blk_wl V c t, blk_wr V c t, blk_b V c t]
  funext j
  obtain ⟨p, q, rfl⟩ : ∃ (p : Fin 1000) (q : Fin 384), j = ix2 p q := ⟨j 0, j 1, eq_ix2 j⟩
  show Sage.pre 1000 256 384 (iblk2 V c 0 t) (iblk2 V c 1 t) (iblk2 V c 2 t) (V c main_arg8) (V c main_arg9) (V c main_arg10) (ix2 p q)
    = Sage.pre 50000 256 384 (V c main_v44) (V c main_v12) (V c main_v34) (V c main_arg8) (V c main_arg9) (V c main_arg10) (((cfg2.win 6).blk t).view.emb (ix2 p q))
  rw [emb_out t p q]
  exact Sage.pre_rows 50000 1000 256 384 (1000 * t.val) (by have := t_lt t; omega) (V c main_v44) (V c main_v12) (V c main_v34) (V c main_arg8) (V c main_arg9) (V c main_arg10)
    (iblk2 V c 0 t) (iblk2 V c 1 t) (iblk2 V c 2 t) (fun p k => blk_agg V c t p k) (fun p => blk_inv V c t p) (fun p k => blk_x V c t p k) p q

/-- An index of the output array is in point `t`'s block iff each coordinate is in the block's range on its axis. -/
theorem mem_blk (t : Fin cfg2.N) (i : S50000x384.Idx) :
    i ∈ ((cfg2.win 6).blk t).view.set ↔ ∀ a : Fin 2, win2_6.index t a * S1000x384.size a ≤ (i a).val ∧ (i a).val < win2_6.index t a * S1000x384.size a + S1000x384.size a := by
  show i ∈ ((View.whole main_v45).slice (win2_6.rect t)).set ↔ _
  rw [View.set_slice_whole, Rect.mem_set_unit]
  exact Iff.rfl

/-- The fifty row blocks cover the output array: row `r` is in the block of point `r / 1000`. -/
theorem cover (i : S50000x384.Idx) : ∃ t : Fin cfg2.N, (cfg2.win 6).flush t = true ∧ i ∈ ((cfg2.win 6).blk t).view.set := by
  have hi0 : (i 0).val < 50000 := (i 0).isLt
  have hi1 : (i 1).val < 384 := (i 1).isLt
  have hN : cfg2.N = 50 := N_2
  have ht : (i 0).val / 1000 < cfg2.N := by rw [hN]; omega
  obtain ⟨-, -, -, -, -, -, -, -, -, -, -, e0, e1⟩ := idx_facts ⟨(i 0).val / 1000, ht⟩
  refine ⟨⟨(i 0).val / 1000, ht⟩, flush2_6 _, ?_⟩
  rw [mem_blk]
  intro a
  match a with
  | ⟨0, _⟩ =>
    show win2_6.index ⟨(i 0).val / 1000, ht⟩ (0 : Fin 2) * 1000 ≤ (i 0).val ∧ (i 0).val < win2_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_6.index ⟨(i 0).val / 1000, ht⟩ (1 : Fin 2) * 384 ≤ (i 1).val ∧ (i 1).val < win2_6.index ⟨(i 0).val / 1000, ht⟩ (1 : Fin 2) * 384 + 384
    rw [e1]; omega

/-- THE OUTPUT ARRAY after the region: one layer (no rectifier) of the arrays the region was entered with. -/
theorem final (c : Dev nD) :
    (dat2 V c).arrAt 6 cfg2.N
      = Sage.pre 50000 256 384 (V c main_v44) (V c main_v12) (V c main_v34) (V c main_arg8) (V c main_arg9) (V c main_arg10) :=
  (dat2 V c).arrAt_eq_of_cover 6 _ (fun t _ => flushed_eq V c t) cover

end Cert.KernelIdeal.Layer2

end
-- ==== Proof.KernelValue.lean ====
/-
  The kernel program's RESULT as a function of its arguments, at the extended reals.  The program is three host
  stretches and three kernel regions in turn; the contents of every buffer at each of the six boundaries is a fold
  from the launch memory.  This module reads that fold at the few buffers the value depends on: the edge sources and
  targets, the reciprocal-degree column, each layer's aggregated input and each layer's output.  A host stretch is
  read operation by operation (the gather and the scatter-add stay unopened, as `agg1` / `agg2`); a region leaves in
  its output array one layer of the arrays it was entered with (the three layer modules) and leaves every other
  buffer alone.  The result is `Sage.net` of the arguments over these aggregations.
-/
import proofs.«173000_j30219389895226_1_alg».proof.Proof.Gen.KernelIdeal.Frame
import proofs.«173000_j30219389895226_1_alg».proof.Proof.SageSpec
import Idealize.ShloMosaic.Lib.StableHlo.Run
import Idealize.ShloMosaic.Lib.Pipeline.Value
import proofs.«173000_j30219389895226_1_alg».proof.Proof.Layer0
import proofs.«173000_j30219389895226_1_alg».proof.Proof.Layer1
import proofs.«173000_j30219389895226_1_alg».proof.Proof.Layer2

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

/-- The edge sources (row 0 of the edge list) and targets (row 1). -/
def src (e : IVec S2x800000 32) : IVec S800000 32 :=
  shapeCast _ (extractStridedSlice S1x800000 ![0, 0] e slices_S2x800000_S1x800000_0_0) shapeCasts_S1x800000_S800000
def dst (e : IVec S2x800000 32) : IVec S800000 32 :=
  shapeCast _ (extractStridedSlice S1x800000 ![1, 0] e slices_S2x800000_S1x800000_1_0) shapeCasts_S1x800000_S800000
/-- The gather index of a source vector: a negative source plus 50000, else the source. -/
def gidxOf (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- Neighbour sums of a width-128 feature array over source and target vectors: gather the source rows, add each into
    its target's row of a zero array. -/
def aggOf1 (s d : IVec S800000 32) (f : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 f (gidxOf s))
/-- The same on width 256. -/
def aggOf2 (s d : IVec S800000 32) (f : FVec Ideal S50000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 f (gidxOf s))
/-- The two aggregations as functions of the edge list. -/
def agg1 (e : IVec S2x800000 32) (f : FVec Ideal S50000x128 .f32) : FVec Ideal S50000x128 .f32 := aggOf1 (src e) (dst e) f
def agg2 (e : IVec S2x800000 32) (f : FVec Ideal S50000x256 .f32) : FVec Ideal S50000x256 .f32 := aggOf2 (src e) (dst e) f
/-- The in-degrees' reciprocals (degree at least one), as a vector over the nodes, from the target vector. -/
def invVecOf (d : IVec S800000 32) : FVec Ideal S50000 .f32 :=
  Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))
/-- The same as a column: the program reshapes the vector. -/
def invDeg (e : IVec S2x800000 32) : FVec Ideal S50000x1 .f32 := shapeCast S50000x1 (invVecOf (dst e)) shapeCasts_S50000_S50000x1

variable (m : (ℓ : Loc nD τ sig) → Buf (Elt Ideal) ℓ) (ρ : Dev nD → PrngReg)

/-- The first and second layers' outputs and the result, as functions of the launch memory. -/
def h1 (c : Dev nD) : FVec Ideal S50000x256 .f32 :=
  Sage.act 50000 128 256 (agg1 (m ((c.tc : Thread nD τ).loc main_arg1)) (m ((c.tc : Thread nD τ).loc main_arg0))) (invDeg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
def h2 (c : Dev nD) : FVec Ideal S50000x256 .f32 :=
  Sage.act 50000 256 256 (agg2 (m ((c.tc : Thread nD τ).loc main_arg1)) (h1 m c)) (invDeg (m ((c.tc : Thread nD τ).loc main_arg1))) (h1 m c) (m ((c.tc : Thread nD τ).loc main_arg5)) (m ((c.tc : Thread nD τ).loc main_arg6)) (m ((c.tc : Thread nD τ).loc main_arg7))
def out (c : Dev nD) : FVec Ideal S50000x384 .f32 :=
  Sage.pre 50000 256 384 (agg2 (m ((c.tc : Thread nD τ).loc main_arg1)) (h2 m c)) (invDeg (m ((c.tc : Thread nD τ).loc main_arg1))) (h2 m c) (m ((c.tc : Thread nD τ).loc main_arg8)) (m ((c.tc : Thread nD τ).loc main_arg9)) (m ((c.tc : Thread nD τ).loc main_arg10))

/-! ## At the first region's entry: the first host stretch, read from the launch memory -/

theorem W1_v1 (c : Dev nD) : (W1 m ρ c (Proc.devRef .tc main_v1) : IVec S800000 32) = src (m ((c.tc : Thread nD τ).loc main_arg1)) := by
  show StableHlo.after hostOps0 (W0 m ρ c) (Proc.devRef .tc main_v1) = _
  after_results_simp <;> rfl
theorem W1_v3 (c : Dev nD) : (W1 m ρ c (Proc.devRef .tc main_v3) : IVec S800000 32) = dst (m ((c.tc : Thread nD τ).loc main_arg1)) := by
  show StableHlo.after hostOps0 (W0 m ρ c) (Proc.devRef .tc main_v3) = _
  after_results_simp <;> rfl
set_option maxHeartbeats 4000000 in
theorem W1_v12 (c : Dev nD) : (W1 m ρ c (Proc.devRef .tc main_v12) : FVec Ideal S50000x1 .f32) = invDeg (m ((c.tc : Thread nD τ).loc main_arg1)) := by
  show StableHlo.after hostOps0 (W0 m ρ c) (Proc.devRef .tc main_v12) = _
  after_results_simp <;> rfl
set_option maxHeartbeats 4000000 in
theorem W1_v22 (c : Dev nD) : (W1 m ρ c (Proc.devRef .tc main_v22) : FVec Ideal S50000x128 .f32) = agg1 (m ((c.tc : Thread nD τ).loc main_arg1)) (m ((c.tc : Thread nD τ).loc main_arg0)) := by
  show StableHlo.after hostOps0 (W0 m ρ c) (Proc.devRef .tc main_v22) = _
  after_results_simp <;> rfl
theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp <;> rfl
theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c.tc : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results_simp <;> rfl
theorem W1_arg5 (c : Dev nD) : W1 m ρ c (Proc.devRef .tc main_arg5) = (m ((c.tc : Thread nD τ).loc main_arg5)) := by
  show StableHlo.after hostOps0 (W0 m ρ c) (Proc.devRef .tc main_arg5) = _
  after_results_simp <;> rfl
theorem W1_arg6 (c : Dev nD) : W1 m ρ c (Proc.devRef .tc main_arg6) = (m ((c.tc : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c.tc : Thread nD τ).loc main_arg7)) := by
  show StableHlo.after hostOps0 (W0 m ρ c) (Proc.devRef .tc main_arg7) = _
  after_results_simp <;> rfl
theorem W1_arg8 (c : Dev nD) : W1 m ρ c (Proc.devRef .tc main_arg8) = (m ((c.tc : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) = (m ((c.tc : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) = (m ((c.tc : Thread nD τ).loc main_arg10)) := by
  show StableHlo.after hostOps0 (W0 m ρ c) (Proc.devRef .tc main_arg10) = _
  after_results_simp <;> rfl

/-! ## At the first region's exit: its output is the first layer; what it does not write is as entered -/

theorem W2_v23 (c : Dev nD) : (W2 m ρ c (Proc.devRef .tc main_v23) : FVec Ideal S50000x256 .f32) = h1 m c := by
  refine (W2_arr m ρ c 6).trans ((Layer0.final (V1 m ρ) c).trans ?_)
  show Sage.act 50000 128 256 (W1 m ρ c (Proc.devRef .tc main_v22)) (W1 m ρ c (Proc.devRef .tc main_v12)) (W1 m ρ c (Proc.devRef .tc main_arg0)) (W1 m ρ c (Proc.devRef .tc main_arg2)) (W1 m ρ c (Proc.devRef .tc main_arg3)) (W1 m ρ c (Proc.devRef .tc main_arg4)) = _
  rw [W1_v22, W1_v12, W1_arg0, W1_arg2, W1_arg3, W1_arg4]
  rfl
theorem W2_v1 (c : Dev nD) : (W2 m ρ c (Proc.devRef .tc main_v1) : IVec S800000 32) = src (m ((c.tc : Thread nD τ).loc main_arg1)) :=
  (W2_of_ne m ρ c main_v1 (by decide)).trans (W1_v1 m ρ c)
theorem W2_v3 (c : Dev nD) : (W2 m ρ c (Proc.devRef .tc main_v3) : IVec S800000 32) = dst (m ((c.tc : Thread nD τ).loc main_arg1)) :=
  (W2_of_ne m ρ c main_v3 (by decide)).trans (W1_v3 m ρ c)
theorem W2_v12 (c : Dev nD) : (W2 m ρ c (Proc.devRef .tc main_v12) : FVec Ideal S50000x1 .f32) = invDeg (m ((c.tc : Thread nD τ).loc main_arg1)) :=
  (W2_arr m ρ c 1).trans (((dat0 (V1 m ρ) c).arrAt_in 1 rfl _).trans ((A_eq0 (V1 m ρ) c 1).trans (W1_v12 m ρ c)))
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg7 (c : Dev nD) : W2 m ρ c (Proc.devRef .tc main_arg7) = (m ((c.tc : Thread nD τ).loc main_arg7)) :=
  (W2_of_ne m ρ c main_arg7 (by decide)).trans (W1_arg7 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)
theorem W2_arg10 (c : Dev nD) : W2 m ρ c (Proc.devRef .tc main_arg10) = (m ((c.tc : Thread nD τ).loc main_arg10)) :=
  (W2_of_ne m ρ c main_arg10 (by decide)).trans (W1_arg10 m ρ c)

/-! ## At the second region's entry: the second host stretch aggregates the first layer -/

theorem W3_v33 (c : Dev nD) : (W3 m ρ c (Proc.devRef .tc main_v33) : FVec Ideal S50000x256 .f32) = agg2 (m ((c.tc : Thread nD τ).loc main_arg1)) (h1 m c) := by
  have e : (W3 m ρ c (Proc.devRef .tc main_v33) : FVec Ideal S50000x256 .f32) = aggOf2 (W2 m ρ c (Proc.devRef .tc main_v1)) (W2 m ρ c (Proc.devRef .tc main_v3)) (W2 m ρ c (Proc.devRef .tc main_v23)) := by
    show StableHlo.after hostOps1 (W2 m ρ c) (Proc.devRef .tc main_v33) = _
    after_results_simp <;> rfl
  rw [e, W2_v1, W2_v3, W2_v23]
  rfl
theorem W3_v1 (c : Dev nD) : (W3 m ρ c (Proc.devRef .tc main_v1) : IVec S800000 32) = src (m ((c.tc : Thread nD τ).loc main_arg1)) :=
  (show W3 m ρ c (Proc.devRef .tc main_v1) = W2 m ρ c (Proc.devRef .tc main_v1) from by
    show StableHlo.after hostOps1 (W2 m ρ c) (Proc.devRef .tc main_v1) = _
    after_results_simp <;> rfl).trans (W2_v1 m ρ c)
theorem W3_v3 (c : Dev nD) : (W3 m ρ c (Proc.devRef .tc main_v3) : IVec S800000 32) = dst (m ((c.tc : Thread nD τ).loc main_arg1)) :=
  (show W3 m ρ c (Proc.devRef .tc main_v3) = W2 m ρ c (Proc.devRef .tc main_v3) from by
    show StableHlo.after hostOps1 (W2 m ρ c) (Proc.devRef .tc main_v3) = _
    after_results_simp <;> rfl).trans (W2_v3 m ρ c)
theorem W3_v12 (c : Dev nD) : (W3 m ρ c (Proc.devRef .tc main_v12) : FVec Ideal S50000x1 .f32) = invDeg (m ((c.tc : Thread nD τ).loc main_arg1)) :=
  (show W3 m ρ c (Proc.devRef .tc main_v12) = W2 m ρ c (Proc.devRef .tc main_v12) from by
    show StableHlo.after hostOps1 (W2 m ρ c) (Proc.devRef .tc main_v12) = _
    after_results_simp <;> rfl).trans (W2_v12 m ρ c)
theorem W3_v23 (c : Dev nD) : (W3 m ρ c (Proc.devRef .tc main_v23) : FVec Ideal S50000x256 .f32) = h1 m c :=
  (show W3 m ρ c (Proc.devRef .tc main_v23) = W2 m ρ c (Proc.devRef .tc main_v23) from by
    show StableHlo.after hostOps1 (W2 m ρ c) (Proc.devRef .tc main_v23) = _
    after_results_simp <;> rfl).trans (W2_v23 m ρ c)
theorem W3_arg5 (c : Dev nD) : W3 m ρ c (Proc.devRef .tc main_arg5) = (m ((c.tc : Thread nD τ).loc main_arg5)) :=
  (show W3 m ρ c (Proc.devRef .tc main_arg5) = W2 m ρ c (Proc.devRef .tc main_arg5) from by
    show StableHlo.after hostOps1 (W2 m ρ c) (Proc.devRef .tc main_arg5) = _
    after_results_simp <;> rfl).trans (W2_arg5 m ρ c)
theorem W3_arg6 (c : Dev nD) : W3 m ρ c (Proc.devRef .tc main_arg6) = (m ((c.tc : Thread nD τ).loc main_arg6)) :=
  (show W3 m ρ c (Proc.devRef .tc main_arg6) = W2 m ρ c (Proc.devRef .tc main_arg6) from by
    show StableHlo.after hostOps1 (W2 m ρ c) (Proc.devRef .tc main_arg6) = _
    after_results_simp <;> rfl).trans (W2_arg6 m ρ c)
theorem W3_arg7 (c : Dev nD) : W3 m ρ c (Proc.devRef .tc main_arg7) = (m ((c.tc : Thread nD τ).loc main_arg7)) :=
  (show W3 m ρ c (Proc.devRef .tc main_arg7) = W2 m ρ c (Proc.devRef .tc main_arg7) from by
    show StableHlo.after hostOps1 (W2 m ρ c) (Proc.devRef .tc main_arg7) = _
    after_results_simp <;> rfl).trans (W2_arg7 m ρ c)
theorem W3_arg8 (c : Dev nD) : W3 m ρ c (Proc.devRef .tc main_arg8) = (m ((c.tc : Thread nD τ).loc main_arg8)) :=
  (show W3 m ρ c (Proc.devRef .tc main_arg8) = W2 m ρ c (Proc.devRef .tc main_arg8) from by
    show StableHlo.after hostOps1 (W2 m ρ c) (Proc.devRef .tc main_arg8) = _
    after_results_simp <;> rfl).trans (W2_arg8 m ρ c)
theorem W3_arg9 (c : Dev nD) : W3 m ρ c (Proc.devRef .tc main_arg9) = (m ((c.tc : Thread nD τ).loc main_arg9)) :=
  (show W3 m ρ c (Proc.devRef .tc main_arg9) = W2 m ρ c (Proc.devRef .tc main_arg9) from by
    show StableHlo.after hostOps1 (W2 m ρ c) (Proc.devRef .tc main_arg9) = _
    after_results_simp <;> rfl).trans (W2_arg9 m ρ c)
theorem W3_arg10 (c : Dev nD) : W3 m ρ c (Proc.devRef .tc main_arg10) = (m ((c.tc : Thread nD τ).loc main_arg10)) :=
  (show W3 m ρ c (Proc.devRef .tc main_arg10) = W2 m ρ c (Proc.devRef .tc main_arg10) from by
    show StableHlo.after hostOps1 (W2 m ρ c) (Proc.devRef .tc main_arg10) = _
    after_results_simp <;> rfl).trans (W2_arg10 m ρ c)

/-! ## At the second region's exit: its output is the second layer -/

theorem W4_v34 (c : Dev nD) : (W4 m ρ c (Proc.devRef .tc main_v34) : FVec Ideal S50000x256 .f32) = h2 m c := by
  refine (W4_arr m ρ c 6).trans ((Layer1.final (V3 m ρ) c).trans ?_)
  show Sage.act 50000 256 256 (W3 m ρ c (Proc.devRef .tc main_v33)) (W3 m ρ c (Proc.devRef .tc main_v12)) (W3 m ρ c (Proc.devRef .tc main_v23)) (W3 m ρ c (Proc.devRef .tc main_arg5)) (W3 m ρ c (Proc.devRef .tc main_arg6)) (W3 m ρ c (Proc.devRef .tc main_arg7)) = _
  rw [W3_v33, W3_v12, W3_v23, W3_arg5, W3_arg6, W3_arg7]
  rfl
theorem W4_v1 (c : Dev nD) : (W4 m ρ c (Proc.devRef .tc main_v1) : IVec S800000 32) = src (m ((c.tc : Thread nD τ).loc main_arg1)) :=
  (W4_of_ne m ρ c main_v1 (by decide)).trans (W3_v1 m ρ c)
theorem W4_v3 (c : Dev nD) : (W4 m ρ c (Proc.devRef .tc main_v3) : IVec S800000 32) = dst (m ((c.tc : Thread nD τ).loc main_arg1)) :=
  (W4_of_ne m ρ c main_v3 (by decide)).trans (W3_v3 m ρ c)
theorem W4_v12 (c : Dev nD) : (W4 m ρ c (Proc.devRef .tc main_v12) : FVec Ideal S50000x1 .f32) = invDeg (m ((c.tc : Thread nD τ).loc main_arg1)) :=
  (W4_arr m ρ c 1).trans (((dat1 (V3 m ρ) c).arrAt_in 1 rfl _).trans ((A_eq1 (V3 m ρ) c 1).trans (W3_v12 m ρ c)))
theorem W4_arg8 (c : Dev nD) : W4 m ρ c (Proc.devRef .tc main_arg8) = (m ((c.tc : Thread nD τ).loc main_arg8)) :=
  (W4_of_ne m ρ c main_arg8 (by decide)).trans (W3_arg8 m ρ c)
theorem W4_arg9 (c : Dev nD) : W4 m ρ c (Proc.devRef .tc main_arg9) = (m ((c.tc : Thread nD τ).loc main_arg9)) :=
  (W4_of_ne m ρ c main_arg9 (by decide)).trans (W3_arg9 m ρ c)
theorem W4_arg10 (c : Dev nD) : W4 m ρ c (Proc.devRef .tc main_arg10) = (m ((c.tc : Thread nD τ).loc main_arg10)) :=
  (W4_of_ne m ρ c main_arg10 (by decide)).trans (W3_arg10 m ρ c)

/-! ## At the third region's entry: the third host stretch aggregates the second layer -/

theorem W5_v44 (c : Dev nD) : (W5 m ρ c (Proc.devRef .tc main_v44) : FVec Ideal S50000x256 .f32) = agg2 (m ((c.tc : Thread nD τ).loc main_arg1)) (h2 m c) := by
  have e : (W5 m ρ c (Proc.devRef .tc main_v44) : FVec Ideal S50000x256 .f32) = aggOf2 (W4 m ρ c (Proc.devRef .tc main_v1)) (W4 m ρ c (Proc.devRef .tc main_v3)) (W4 m ρ c (Proc.devRef .tc main_v34)) := by
    show StableHlo.after hostOps2 (W4 m ρ c) (Proc.devRef .tc main_v44) = _
    after_results_simp <;> rfl
  rw [e, W4_v1, W4_v3, W4_v34]
  rfl
theorem W5_v12 (c : Dev nD) : (W5 m ρ c (Proc.devRef .tc main_v12) : FVec Ideal S50000x1 .f32) = invDeg (m ((c.tc : Thread nD τ).loc main_arg1)) :=
  (show W5 m ρ c (Proc.devRef .tc main_v12) = W4 m ρ c (Proc.devRef .tc main_v12) from by
    show StableHlo.after hostOps2 (W4 m ρ c) (Proc.devRef .tc main_v12) = _
    after_results_simp <;> rfl).trans (W4_v12 m ρ c)
theorem W5_v34 (c : Dev nD) : (W5 m ρ c (Proc.devRef .tc main_v34) : FVec Ideal S50000x256 .f32) = h2 m c :=
  (show W5 m ρ c (Proc.devRef .tc main_v34) = W4 m ρ c (Proc.devRef .tc main_v34) from by
    show StableHlo.after hostOps2 (W4 m ρ c) (Proc.devRef .tc main_v34) = _
    after_results_simp <;> rfl).trans (W4_v34 m ρ c)
theorem W5_arg8 (c : Dev nD) : W5 m ρ c (Proc.devRef .tc main_arg8) = (m ((c.tc : Thread nD τ).loc main_arg8)) :=
  (show W5 m ρ c (Proc.devRef .tc main_arg8) = W4 m ρ c (Proc.devRef .tc main_arg8) from by
    show StableHlo.after hostOps2 (W4 m ρ c) (Proc.devRef .tc main_arg8) = _
    after_results_simp <;> rfl).trans (W4_arg8 m ρ c)
theorem W5_arg9 (c : Dev nD) : W5 m ρ c (Proc.devRef .tc main_arg9) = (m ((c.tc : Thread nD τ).loc main_arg9)) :=
  (show W5 m ρ c (Proc.devRef .tc main_arg9) = W4 m ρ c (Proc.devRef .tc main_arg9) from by
    show StableHlo.after hostOps2 (W4 m ρ c) (Proc.devRef .tc main_arg9) = _
    after_results_simp <;> rfl).trans (W4_arg9 m ρ c)
theorem W5_arg10 (c : Dev nD) : W5 m ρ c (Proc.devRef .tc main_arg10) = (m ((c.tc : Thread nD τ).loc main_arg10)) :=
  (show W5 m ρ c (Proc.devRef .tc main_arg10) = W4 m ρ c (Proc.devRef .tc main_arg10) from by
    show StableHlo.after hostOps2 (W4 m ρ c) (Proc.devRef .tc main_arg10) = _
    after_results_simp <;> rfl).trans (W4_arg10 m ρ c)

/-! ## At the return: the result buffer holds the third layer -/

/-- THE RESULT: what the fold through the three host stretches and the three regions leaves in the result buffer is
    the three stacked layers of the launch memory's arguments. -/
theorem W6_v45 (c : Dev nD) : (W6 m ρ c (Proc.devRef .tc main_v45) : FVec Ideal S50000x384 .f32)
    = Sage.net (agg1 (m ((c.tc : Thread nD τ).loc main_arg1))) (agg2 (m ((c.tc : Thread nD τ).loc main_arg1))) (invDeg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 6).trans ((Layer2.final (V5 m ρ) c).trans ?_)
  show Sage.pre 50000 256 384 (W5 m ρ c (Proc.devRef .tc main_v44)) (W5 m ρ c (Proc.devRef .tc main_v12)) (W5 m ρ c (Proc.devRef .tc main_v34)) (W5 m ρ c (Proc.devRef .tc main_arg8)) (W5 m ρ c (Proc.devRef .tc main_arg9)) (W5 m ρ c (Proc.devRef .tc main_arg10)) = _
  rw [W5_v44, W5_v12, W5_v34, W5_arg8, W5_arg9, W5_arg10]
  rfl

end Cert.KernelIdeal.Fold

end
-- ==== Proof.RefLayers.lean ====
/-
  The reference's three layers read index by index.

  At an index (i, j) each layer of the reference is

      (Σ_k (agg[i,k] · inv[i,0]) · wl[k,j]) + (Σ_k x[i,k] · wr[k,j]) + b[j],

  followed on the first two layers by the maximum with the float zero: the specification's `Sage.pre` and `Sage.act`,
  with the sums in the same order and grouping, so no algebraic law of the extended reals is used. The neighbour sums
  `agg` (rows gathered along the edge sources, added into the rows of the edge targets) and the column `inv` of
  reciprocal in-degrees are never opened: they are named here as functions of the edge list (`agg1`, `agg2`,
  `invDeg`), and the reference's own operations are identified with them by unfolding names only. The reference's
  result is then `Sage.net` over those three.
-/
import proofs.«173000_j30219389895226_1_alg».proof.Proof.Gen.ReferenceIdeal.Run
import proofs.«173000_j30219389895226_1_alg».proof.Proof.Gen.ReferenceIdeal.Read
import proofs.«173000_j30219389895226_1_alg».proof.Proof.SageSpec
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.Gen Idealize.ShloMosaic Idealize.ShloMosaic.TcCoe Idealize.SL.Sem Idealize.ShloMosaic.ValueIdx

/-- The edge sources (row 0 of the edge list) … -/
def src (e : IVec S2x800000 32) : IVec S800000 32 := shapeCast _ (extractStridedSlice S1x800000 ![0, 0] e slices_S2x800000_S1x800000_0_0) shapeCasts_S1x800000_S800000
/-- … and the edge targets (row 1). -/
def dst (e : IVec S2x800000 32) : IVec S800000 32 := shapeCast _ (extractStridedSlice S1x800000 ![1, 0] e slices_S2x800000_S1x800000_1_0) shapeCasts_S1x800000_S800000
/-- The gather index: a negative source plus 50000, else the source. -/
def gidx (e : IVec S2x800000 32) : IVec S800000x1 32 := broadcastInDim S800000x1 ![0] bcast_S800000_S800000x1_0 (select (cmpi .slt (src e) (broadcastInDim S800000 ![] bcast_S_S800000 (constantI S_ 32 0#32))) (addi (src e) (broadcastInDim S800000 ![] bcast_S_S800000 (constantI S_ 32 50000#32))) (src e))
/-- The neighbour sums at width 128: the rows of `f` at the gather indices, added into the rows of the targets. -/
def agg1 (e : IVec S2x800000 32) (f : FVec Ideal S50000x128 .f32) : FVec Ideal S50000x128 .f32 := Host.scatterAdd scatter_S50000x128_S800000x1_S800000x128_1_0_0_1 (broadcastInDim S50000x128 ![] bcast_S_S50000x128 (constant S_ .f32 0x00000000#32)) (broadcastInDim S800000x1 ![0] bcast_S800000_S800000x1_0 (dst e)) (Host.gather gather_S50000x128_S800000x1_S800000x128_1_0_n_n_0_1_1128 f (gidx e))
/-- The neighbour sums at width 256. -/
def agg2 (e : IVec S2x800000 32) (f : FVec Ideal S50000x256 .f32) : FVec Ideal S50000x256 .f32 := Host.scatterAdd scatter_S50000x256_S800000x1_S800000x256_1_0_0_1 (broadcastInDim S50000x256 ![] bcast_S_S50000x256 (constant S_ .f32 0x00000000#32)) (broadcastInDim S800000x1 ![0] bcast_S800000_S800000x1_0 (dst e)) (Host.gather gather_S50000x256_S800000x1_S800000x256_1_0_n_n_0_1_1256 f (gidx e))
/-- The column of reciprocal in-degrees: one over the larger of the number of edges into a node and one. -/
def invDeg (e : IVec S2x800000 32) : FVec Ideal S50000x1 .f32 := broadcastInDim S50000x1 ![0] bcast_S50000_S50000x1_0 (Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (broadcastInDim S800000x1 ![0] bcast_S800000_S800000x1_0 (dst e)) (broadcastInDim S800000 ![] bcast_S_S800000 (constant S_ .f32 0x3F800000#32))) (broadcastInDim S50000 ![] bcast_S_S50000 (constant S_ .f32 0x3F800000#32))))

/-- The first layer: the rectified sum of the scaled neighbour sums through the left weights, the features through the right weights, and the bias, read index by index. -/
theorem layer1 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    Read.val_main_v31 (F := Ideal) x0 x1 x2 x3 x4
      = Sage.act 50000 128 256 (Read.val_main_v22 (F := Ideal) x0 x1) (Read.val_main_v12 (F := Ideal) x1) x0 x2 x3 x4 := by
  funext i
  have hl : ∀ k : Fin 128, Read.lidx_main_v25 i k = ix2 (Sage.rowOf i) k :=
    fun k => funext fun a => Fin.ext (by match a with | ⟨0, _⟩ => rfl | ⟨1, _⟩ => rfl)
  have hr : ∀ k : Fin 128, Read.ridx_main_v25 i k = ix2 k (Sage.colOf i) :=
    fun k => funext fun a => Fin.ext (by match a with | ⟨0, _⟩ => rfl | ⟨1, _⟩ => rfl)
  have hl' : ∀ k : Fin 128, Read.lidx_main_v26 i k = ix2 (Sage.rowOf i) k :=
    fun k => funext fun a => Fin.ext (by match a with | ⟨0, _⟩ => rfl | ⟨1, _⟩ => rfl)
  have hr' : ∀ k : Fin 128, Read.ridx_main_v26 i k = ix2 k (Sage.colOf i) :=
    fun k => funext fun a => Fin.ext (by match a with | ⟨0, _⟩ => rfl | ⟨1, _⟩ => rfl)
  have hinv : ∀ k : Fin 128, Read.idx_main_v23 (ix2 (Sage.rowOf i) k) = ix2 (Sage.rowOf i) (0 : Fin 1) :=
    fun k => funext fun a => Fin.ext (by match a with | ⟨0, _⟩ => rfl | ⟨1, _⟩ => rfl)
  have hb : Read.idx_main_v28 (Read.idx_main_v29 i) = ix1 (Sage.colOf i) :=
    funext fun a => Fin.ext (by match a with | ⟨0, _⟩ => rfl)
  have h1 : (fun k : Fin 128 => Read.val_main_v24 (F := Ideal) x0 x1 (Read.lidx_main_v25 i k) * x2 (Read.ridx_main_v25 i k))
      = fun k => (Read.val_main_v22 (F := Ideal) x0 x1 (ix2 (Sage.rowOf i) k) * Read.val_main_v12 (F := Ideal) x1 (ix2 (Sage.rowOf i) (0 : Fin 1))) * x2 (ix2 k (Sage.colOf i)) := by
    funext k
    rw [hl k, hr k, Read.val_main_v24_apply, Read.val_main_v23_apply, hinv k]
    rfl
  have h2 : (fun k : Fin 128 => x0 (Read.lidx_main_v26 i k) * x3 (Read.ridx_main_v26 i k))
      = fun k => x0 (ix2 (Sage.rowOf i) k) * x3 (ix2 k (Sage.colOf i)) := by
    funext k
    rw [hl' k, hr' k]
  rw [Read.val_main_v31_apply, Read.val_main_v30_apply, Read.val_main_v27_apply, Read.val_main_v25_apply, Read.val_main_v26_apply,
    Read.val_main_v29_apply, Read.val_main_v28_apply, Read.val_main_call0_v0_apply, Read.val_main_call0_cst_apply, h1, h2, hb]
  rfl

/-- The second layer, over the first layer's output. -/
theorem layer2 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal)) :
    Read.val_main_v50 (F := Ideal) x0 x1 x2 x3 x4 x5 x6 x7
      = Sage.act 50000 256 256 (Read.val_main_v41 (F := Ideal) x0 x1 x2 x3 x4) (Read.val_main_v12 (F := Ideal) x1) (Read.val_main_v31 (F := Ideal) x0 x1 x2 x3 x4) x5 x6 x7 := by
  funext i
  have hl : ∀ k : Fin 256, Read.lidx_main_v44 i k = ix2 (Sage.rowOf i) k :=
    fun k => funext fun a => Fin.ext (by match a with | ⟨0, _⟩ => rfl | ⟨1, _⟩ => rfl)
  have hr : ∀ k : Fin 256, Read.ridx_main_v44 i k = ix2 k (Sage.colOf i) :=
    fun k => funext fun a => Fin.ext (by match a with | ⟨0, _⟩ => rfl | ⟨1, _⟩ => rfl)
  have hl' : ∀ k : Fin 256, Read.lidx_main_v45 i k = ix2 (Sage.rowOf i) k :=
    fun k => funext fun a => Fin.ext (by match a with | ⟨0, _⟩ => rfl | ⟨1, _⟩ => rfl)
  have hr' : ∀ k : Fin 256, Read.ridx_main_v45 i k = ix2 k (Sage.colOf i) :=
    fun k => funext fun a => Fin.ext (by match a with | ⟨0, _⟩ => rfl | ⟨1, _⟩ => rfl)
  have hinv : ∀ k : Fin 256, Read.idx_main_v42 (ix2 (Sage.rowOf i) k) = ix2 (Sage.rowOf i) (0 : Fin 1) :=
    fun k => funext fun a => Fin.ext (by match a with | ⟨0, _⟩ => rfl | ⟨1, _⟩ => rfl)
  have hb : Read.idx_main_v47 (Read.idx_main_v48 i) = ix1 (Sage.colOf i) :=
    funext fun a => Fin.ext (by match a with | ⟨0, _⟩ => rfl)
  have h1 : (fun k : Fin 256 => Read.val_main_v43 (F := Ideal) x0 x1 x2 x3 x4 (Read.lidx_main_v44 i k) * x5 (Read.ridx_main_v44 i k))
      = fun k => (Read.val_main_v41 (F := Ideal) x0 x1 x2 x3 x4 (ix2 (Sage.rowOf i) k) * Read.val_main_v12 (F := Ideal) x1 (ix2 (Sage.rowOf i) (0 : Fin 1))) * x5 (ix2 k (Sage.colOf i)) := by
    funext k
    rw [hl k, hr k, Read.val_main_v43_apply, Read.val_main_v42_apply, hinv k]
    rfl
  have h2 : (fun k : Fin 256 => Read.val_main_v31 (F := Ideal) x0 x1 x2 x3 x4 (Read.lidx_main_v45 i k) * x6 (Read.ridx_main_v45 i k))
      = fun k => Read.val_main_v31 (F := Ideal) x0 x1 x2 x3 x4 (ix2 (Sage.rowOf i) k) * x6 (ix2 k (Sage.colOf i)) := by
    funext k
    rw [hl' k, hr' k]
  rw [Read.val_main_v50_apply, Read.val_main_v49_apply, Read.val_main_v46_apply, Read.val_main_v44_apply, Read.val_main_v45_apply,
    Read.val_main_v48_apply, Read.val_main_v47_apply, Read.val_main_call1_v0_apply, Read.val_main_call1_cst_apply, h1, h2, hb]
  rfl

/-- The third layer, over the second layer's output, without the rectifier. -/
theorem layer3 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 x9 : (⟨S256x384, .f32⟩ : BufTy).Contents (Elt Ideal)) (x10 : (⟨S384, .f32⟩ : BufTy).Contents (Elt Ideal)) :
    Read.val_main_v68 (F := Ideal) x0 x1 x2 x3 x4 x5 x6 x7 x8 x9 x10
      = Sage.pre 50000 256 384 (Read.val_main_v60 (F := Ideal) x0 x1 x2 x3 x4 x5 x6 x7) (Read.val_main_v12 (F := Ideal) x1) (Read.val_main_v50 (F := Ideal) x0 x1 x2 x3 x4 x5 x6 x7) x8 x9 x10 := by
  funext i
  have hl : ∀ k : Fin 256, Read.lidx_main_v63 i k = ix2 (Sage.rowOf i) k :=
    fun k => funext fun a => Fin.ext (by match a with | ⟨0, _⟩ => rfl | ⟨1, _⟩ => rfl)
  have hr : ∀ k : Fin 256, Read.ridx_main_v63 i k = ix2 k (Sage.colOf i) :=
    fun k => funext fun a => Fin.ext (by match a with | ⟨0, _⟩ => rfl | ⟨1, _⟩ => rfl)
  have hl' : ∀ k : Fin 256, Read.lidx_main_v64 i k = ix2 (Sage.rowOf i) k :=
    fun k => funext fun a => Fin.ext (by match a with | ⟨0, _⟩ => rfl | ⟨1, _⟩ => rfl)
  have hr' : ∀ k : Fin 256, Read.ridx_main_v64 i k = ix2 k (Sage.colOf i) :=
    fun k => funext fun a => Fin.ext (by match a with | ⟨0, _⟩ => rfl | ⟨1, _⟩ => rfl)
  have hinv : ∀ k : Fin 256, Read.idx_main_v61 (ix2 (Sage.rowOf i) k) = ix2 (Sage.rowOf i) (0 : Fin 1) :=
    fun k => funext fun a => Fin.ext (by match a with | ⟨0, _⟩ => rfl | ⟨1, _⟩ => rfl)
  have hb : Read.idx_main_v66 (Read.idx_main_v67 i) = ix1 (Sage.colOf i) :=
    funext fun a => Fin.ext (by match a with | ⟨0, _⟩ => rfl)
  have h1 : (fun k : Fin 256 => Read.val_main_v62 (F := Ideal) x0 x1 x2 x3 x4 x5 x6 x7 (Read.lidx_main_v63 i k) * x8 (Read.ridx_main_v63 i k))
      = fun k => (Read.val_main_v60 (F := Ideal) x0 x1 x2 x3 x4 x5 x6 x7 (ix2 (Sage.rowOf i) k) * Read.val_main_v12 (F := Ideal) x1 (ix2 (Sage.rowOf i) (0 : Fin 1))) * x8 (ix2 k (Sage.colOf i)) := by
    funext k
    rw [hl k, hr k, Read.val_main_v62_apply, Read.val_main_v61_apply, hinv k]
    rfl
  have h2 : (fun k : Fin 256 => Read.val_main_v50 (F := Ideal) x0 x1 x2 x3 x4 x5 x6 x7 (Read.lidx_main_v64 i k) * x9 (Read.ridx_main_v64 i k))
      = fun k => Read.val_main_v50 (F := Ideal) x0 x1 x2 x3 x4 x5 x6 x7 (ix2 (Sage.rowOf i) k) * x9 (ix2 k (Sage.colOf i)) := by
    funext k
    rw [hl' k, hr' k]
  rw [Read.val_main_v68_apply, Read.val_main_v65_apply, Read.val_main_v63_apply, Read.val_main_v64_apply,
    Read.val_main_v67_apply, Read.val_main_v66_apply, h1, h2, hb]
  rfl

/-- The neighbour sums of the features: the same host operations on the edge list and the features. -/
theorem agg22 (x0 : (⟨S50000x128, .f32⟩ : BufTy).Contents (Elt Ideal)) (x1 : (⟨S2x800000, .i32⟩ : BufTy).Contents (Elt Ideal)) :
    Read.val_main_v22 (F := Ideal) x0 x1 = agg1 x1 x0 := by
  unfold Read.val_main_v22 Read.val_main_v20 Read.val_main_cst_4 Read.val_main_v21 Read.val_main_v19 Read.val_main_v18 Read.val_main_v17 Read.val_main_v14 Read.val_main_v16 Read.val_main_v13 Read.val_main_c Read.val_main_v15 Read.val_main_c_3 Read.val_main_v3 Read.val_main_v2 Read.val_main_v1 Read.val_main_v0 agg1 gidx src dst
  rfl

/-- The neighbour sums of the first layer's output. -/
theorem agg41 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    Read.val_main_v41 (F := Ideal) x0 x1 x2 x3 x4 = agg2 x1 (Read.val_main_v31 (F := Ideal) x0 x1 x2 x3 x4) := by
  unfold Read.val_main_v41 Read.val_main_v39 Read.val_main_cst_7 Read.val_main_v40 Read.val_main_v38 Read.val_main_v37 Read.val_main_v36 Read.val_main_v33 Read.val_main_v35 Read.val_main_v32 Read.val_main_c_5 Read.val_main_v34 Read.val_main_c_6 Read.val_main_v3 Read.val_main_v2 Read.val_main_v1 Read.val_main_v0 agg2 gidx src dst
  rfl

/-- The neighbour sums of the second layer's output. -/
theorem agg60 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal)) :
    Read.val_main_v60 (F := Ideal) x0 x1 x2 x3 x4 x5 x6 x7 = agg2 x1 (Read.val_main_v50 (F := Ideal) x0 x1 x2 x3 x4 x5 x6 x7) := by
  unfold Read.val_main_v60 Read.val_main_v58 Read.val_main_cst_10 Read.val_main_v59 Read.val_main_v57 Read.val_main_v56 Read.val_main_v55 Read.val_main_v52 Read.val_main_v54 Read.val_main_v51 Read.val_main_c_8 Read.val_main_v53 Read.val_main_c_9 Read.val_main_v3 Read.val_main_v2 Read.val_main_v1 Read.val_main_v0 agg2 gidx src dst
  rfl

/-- The column of reciprocal in-degrees: one over the larger of the in-degree and one. -/
theorem inv12 (x1 : (⟨S2x800000, .i32⟩ : BufTy).Contents (Elt Ideal)) :
    Read.val_main_v12 (F := Ideal) x1 = invDeg x1 := by
  unfold Read.val_main_v12 Read.val_main_v11 Read.val_main_v10 Read.val_main_cst_2 Read.val_main_v9 Read.val_main_v8 Read.val_main_cst_1 Read.val_main_v7 Read.val_main_v5 Read.val_main_cst_0 Read.val_main_v6 Read.val_main_v4 Read.val_main_cst Read.val_main_v3 Read.val_main_v2 invDeg dst
  rfl

/-- The reference's result is the three stacked layers over the two neighbour-sum operators and the reciprocal in-degrees. -/
theorem ref_value (m : (ℓ : Loc nD τ sig) → Buf (Elt Ideal) ℓ) (c : Dev nD) :
    Cert.ReferenceIdeal.Value.res_main_v68 (F := Ideal) m c
      = Sage.net (agg1 (m ((c.tc : Thread nD τ).loc main_arg1))) (agg2 (m ((c.tc : Thread nD τ).loc main_arg1))) (invDeg (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [Read.val_main_v68_eq, layer3, agg60, layer2, agg41, layer1, agg22, inv12]
  rfl

end Cert.ReferenceIdeal.Layers

end
-- ==== Proof.Bridge.lean ====
/-
  The two programs compute their neighbour sums and reciprocal degrees with the same host operations on the same
  edge list, so the three stacked layers agree as soon as those operators do.  The gather-and-scatter-add
  aggregations are the same terms on both sides (only each program's own names for the shapes and dimension records
  differ), so they are equal without being opened.  The one real difference is how the reciprocal-degree vector
  becomes a column: the kernel program reshapes `[50000]` to `[50000, 1]`, the reference broadcasts it along a new unit
  axis; both columns read the vector's entry of the row (`col_eq`).
-/
import proofs.«173000_j30219389895226_1_alg».proof.Proof.KernelValue
import proofs.«173000_j30219389895226_1_alg».proof.Proof.RefLayers
import Idealize.ShloMosaic.Lib.Pipeline.Value
import Idealize.ShloMosaic.Lib.ValueIdx

noncomputable section

namespace Cert.Bridge

open Idealize.ShloMosaic Idealize.ShloMosaic.ValueIdx

/-- An `[a]` vector cast to the column `[a, 1]` reads, at `(i, u)`, the vector at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector over the nodes reshaped to a column is the vector broadcast along a new unit axis. -/
theorem col_eq (v : FVec Ideal Cert.KernelIdeal.S50000 .f32) :
    shapeCast Cert.KernelIdeal.S50000x1 v Cert.KernelIdeal.Facts₀.shapeCasts_S50000_S50000x1
      = broadcastInDim Cert.ReferenceIdeal.S50000x1 ![0] Cert.ReferenceIdeal.Facts₀.bcast_S50000_S50000x1_0 v := by
  funext i
  obtain ⟨p, u, rfl⟩ : ∃ (p : Fin 50000) (u : Fin 1), i = ix2 p u := ⟨i 0, i 1, eq_ix2 i⟩
  rw [shapeCast_col_apply]
  exact (broadcastInDim_apply _ Cert.ReferenceIdeal.Facts₀.bcast_S50000_S50000x1_0 v (ix2 p u) (ix1 p) (fun a => match a with
    | ⟨0, _⟩ => by show p.val = if (50000 : Nat) = 1 then 0 else p.val; rw [if_neg (by decide)])).symm

/-- The width-128 aggregation is one operator in both programs. -/
theorem agg1_eq (e : IVec Cert.KernelIdeal.S2x800000 32) (f : FVec Ideal Cert.KernelIdeal.S50000x128 .f32) :
    Cert.KernelIdeal.Fold.agg1 e f = Cert.ReferenceIdeal.Layers.agg1 e f := rfl
/-- So is the width-256 aggregation. -/
theorem agg2_eq (e : IVec Cert.KernelIdeal.S2x800000 32) (f : FVec Ideal Cert.KernelIdeal.S50000x256 .f32) :
    Cert.KernelIdeal.Fold.agg2 e f = Cert.ReferenceIdeal.Layers.agg2 e f := rfl
/-- The reciprocal-degree columns agree. -/
theorem invDeg_eq (e : IVec Cert.KernelIdeal.S2x800000 32) :
    Cert.KernelIdeal.Fold.invDeg e = Cert.ReferenceIdeal.Layers.invDeg e := by
  unfold Cert.KernelIdeal.Fold.invDeg Cert.ReferenceIdeal.Layers.invDeg
  exact col_eq _

/-- The three stacked layers over the kernel program's operators are those over the reference's. -/
theorem net_eq (e : IVec Cert.KernelIdeal.S2x800000 32) (x : Sage.Mat 50000 128) (w1l w1r : Sage.Mat 128 256) (b1 : Sage.Row 256)
    (w2l w2r : Sage.Mat 256 256) (b2 : Sage.Row 256) (w3l w3r : Sage.Mat 256 384) (b3 : Sage.Row 384) :
    Sage.net (Cert.KernelIdeal.Fold.agg1 e) (Cert.KernelIdeal.Fold.agg2 e) (Cert.KernelIdeal.Fold.invDeg e) x w1l w1r b1 w2l w2r b2 w3l w3r b3
      = Sage.net (Cert.ReferenceIdeal.Layers.agg1 e) (Cert.ReferenceIdeal.Layers.agg2 e) (Cert.ReferenceIdeal.Layers.invDeg e) x w1l w1r b1 w2l w2r b2 w3l w3r b3 := by
  rw [show Cert.KernelIdeal.Fold.agg1 e = Cert.ReferenceIdeal.Layers.agg1 e from funext (agg1_eq e),
    show Cert.KernelIdeal.Fold.agg2 e = Cert.ReferenceIdeal.Layers.agg2 e from funext (agg2_eq e), invDeg_eq e]

end Cert.Bridge

end
-- ==== Proof.lean ====
/-
  Three stacked mean-aggregating graph-convolution layers over 50000 nodes and 800000 edges (feature widths
  128 → 256 → 256 → 384; a rectifier after the first two), as a kernel program against a plain reference.

  Both programs compute, on the host, the in-degrees' reciprocals `inv` (degree at least one) and, per layer, the
  neighbour sums `agg = scatter-add over the targets of the source rows`; a layer is then

      out[i, j] = (Σ_k (agg[i,k] · inv[i]) · W_l[k,j]) + (Σ_k h[i,k] · W_r[k,j]) + b[j],      rectified on layers 1 and 2.

  The kernel program does the part after the aggregation in a kernel region per layer, fifty row blocks of 1000 rows
  each; the reference does it with two whole-array products.  At the extended reals a matrix product is the plain sum over
  the inner axis whatever the tiling and whatever the operands' storage format, so block `t` of the kernel's output is rows
  `1000 t …` of the reference's, term by term in the same order: no law of the extended reals beyond the definitions is
  used, and the precondition (finite inputs) is never opened.  The aggregations themselves are the same host
  operations in both programs and stay unopened.

  The pieces: `SageSpec` (one layer and the three stacked, index by index), `Layer0` / `Layer1` / `Layer2` (each
  region leaves one layer of its entry arrays), `KernelRun` (the program's run with the result buffer named),
  `KernelValue` (the fold through host stretches and regions read at the result), `RefLayers` (the reference's
  composed term is the same stack), `Bridge` (the two programs' host operators agree).  The frames of the two kernel
  programs are the generated ones; the reference's frame is its generated run with the result dropped; the idealized
  kernel is the kernel's own text (no rewrite was applied), so `preserves` is trivial.
-/
import proofs.«173000_j30219389895226_1_alg».proof.Defs
import proofs.«173000_j30219389895226_1_alg».proof.Proof.Gen.Kernel
import proofs.«173000_j30219389895226_1_alg».proof.Proof.Gen.Kernel.Frame
import proofs.«173000_j30219389895226_1_alg».proof.Proof.Gen.KernelIdeal
import proofs.«173000_j30219389895226_1_alg».proof.Proof.Gen.KernelIdeal.Frame
import proofs.«173000_j30219389895226_1_alg».proof.Proof.Gen.ReferenceIdeal
import proofs.«173000_j30219389895226_1_alg».proof.Proof.Gen.ReferenceIdeal.Run
import proofs.«173000_j30219389895226_1_alg».proof.Proof.Gen.Pre_finite_inputs
import proofs.«173000_j30219389895226_1_alg».proof.Proof.KernelRun
import proofs.«173000_j30219389895226_1_alg».proof.Proof.KernelValue
import proofs.«173000_j30219389895226_1_alg».proof.Proof.RefLayers
import proofs.«173000_j30219389895226_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments alone (generated, at the word level). -/
theorem frame_kernel : Cert.frame_Kernel := fun m ρ _ => Cert.Kernel.Gen.frame m ρ
/-- So does its idealization (generated, at the extended reals). -/
theorem frame_kernelIdeal : Cert.frame_KernelIdeal := fun m ρ _ => Cert.KernelIdeal.Gen.frame m ρ
/-- The reference runs and leaves its arguments alone: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- From memories agreeing on the arguments both programs end with the three stacked layers of those arguments: the
    kernel program by its run and the fold read at the result, the reference by its run and its composed term. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Valued.run_valued m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Layers.ref_value, a0, a1, a2, a3, a4, a5, a6, a7, a8, a9, a10]
  exact ((Cert.KernelIdeal.Fold.W6_v45 m ρ c).trans (Cert.Bridge.net_eq _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
